-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x256x256 : Shape := ⟨4, ![2, 256, 256, 256]⟩
abbrev S_ : Shape := ⟨0, ![]⟩

class Facts : Prop where
  bcast_S_S2x256x256x256 : S_.BroadcastsInDim S2x256x256x256 (![] : Fin 0 → Fin S2x256x256x256.rank)
  reducesTo_S2x256x256x256_S_d0_1_2_3 : S2x256x256x256.ReducesTo [0, 1, 2, 3] S_
  h_S_ : 0 < S_.numel

variable [Facts]

def fn_part1 {F : FTy → Type} [FloatOps F] (main_v4 : FVec F S2x256x256x256 .f32) (main_v9 : FVec F S2x256x256x256 .f32) (main_v13 : IVec S_ 1) (main_v16 : IVec S2x256x256x256 1) : IVec S_ 1 :=
  let main_c_5 : IVec S_ 1 := constantI S_ 1 1#1
  let main_v17 : IVec S_ 1 := (fun x v => Host.reduce IntOp.andi x v reducesTo_S2x256x256x256_S_d0_1_2_3 h_S_) main_v16 main_c_5
  let main_v18 : IVec S_ 1 := andi main_v13 main_v17
  let main_cst_6 : FVec F S_ .f32 := constant S_ .f32 0x00000000#32
  let main_v19 : FVec F S2x256x256x256 .f32 := broadcastInDim S2x256x256x256 ![] bcast_S_S2x256x256x256 main_cst_6
  let main_v20 : IVec S2x256x256x256 1 := cmpf .oge main_v4 main_v19
  let main_cst_7 : FVec F S_ .f32 := constant S_ .f32 0x41F80000#32
  let main_v21 : FVec F S2x256x256x256 .f32 := broadcastInDim S2x256x256x256 ![] bcast_S_S2x256x256x256 main_cst_7
  let main_v22 : IVec S2x256x256x256 1 := cmpf .ole main_v4 main_v21
  let main_v23 : IVec S2x256x256x256 1 := andi main_v20 main_v22
  let main_c_8 : IVec S_ 1 := constantI S_ 1 1#1
  let main_v24 : IVec S_ 1 := (fun x v => Host.reduce IntOp.andi x v reducesTo_S2x256x256x256_S_d0_1_2_3 h_S_) main_v23 main_c_8
  let main_v25 : IVec S_ 1 := andi main_v18 main_v24
  let main_cst_9 : FVec F S_ .f32 := constant S_ .f32 0x00000000#32
  let main_v26 : FVec F S2x256x256x256 .f32 := broadcastInDim S2x256x256x256 ![] bcast_S_S2x256x256x256 main_cst_9
  let main_v27 : IVec S2x256x256x256 1 := cmpf .oge main_v9 main_v26
  let main_cst_10 : FVec F S_ .f32 := constant S_ .f32 0x41F80000#32
  let main_v28 : FVec F S2x256x256x256 .f32 := broadcastInDim S2x256x256x256 ![] bcast_S_S2x256x256x256 main_cst_10
  let main_v29 : IVec S2x256x256x256 1 := cmpf .ole main_v9 main_v28
  let main_v30 : IVec S2x256x256x256 1 := andi main_v27 main_v29
  let main_c_11 : IVec S_ 1 := constantI S_ 1 1#1
  let main_v31 : IVec S_ 1 := (fun x v => Host.reduce IntOp.andi x v reducesTo_S2x256x256x256_S_d0_1_2_3 h_S_) main_v30 main_c_11
  let main_v32 : IVec S_ 1 := andi main_v25 main_v31
  main_v32

def fn {F : FTy → Type} [FloatOps F] (main_arg0 : FVec F S2x256x256x256 .f32) (main_arg1 : FVec F S2x256x256x256 .f32) : IVec S_ 1 :=
  let main_cst : FVec F S_ .f32 := constant S_ .f32 0x437F0000#32
  let main_v0 : FVec F S2x256x256x256 .f32 := broadcastInDim S2x256x256x256 ![] bcast_S_S2x256x256x256 main_cst
  let main_v1 : FVec F S2x256x256x256 .f32 := Host.divf main_arg0 main_v0
  let main_cst_0 : FVec F S_ .f32 := constant S_ .f32 0x41F80000#32
  let main_v2 : FVec F S2x256x256x256 .f32 := broadcastInDim S2x256x256x256 ![] bcast_S_S2x256x256x256 main_cst_0
  let main_v3 : FVec F S2x256x256x256 .f32 := mulf main_v1 main_v2
  let main_v4 : FVec F S2x256x256x256 .f32 := Host.roundeven main_v3
  let main_cst_1 : FVec F S_ .f32 := constant S_ .f32 0x437F0000#32
  let main_v5 : FVec F S2x256x256x256 .f32 := broadcastInDim S2x256x256x256 ![] bcast_S_S2x256x256x256 main_cst_1
  let main_v6 : FVec F S2x256x256x256 .f32 := Host.divf main_arg1 main_v5
  let main_cst_2 : FVec F S_ .f32 := constant S_ .f32 0x41F80000#32
  let main_v7 : FVec F S2x256x256x256 .f32 := broadcastInDim S2x256x256x256 ![] bcast_S_S2x256x256x256 main_cst_2
  let main_v8 : FVec F S2x256x256x256 .f32 := mulf main_v6 main_v7
  let main_v9 : FVec F S2x256x256x256 .f32 := Host.roundeven main_v8
  let main_v10 : FVec F S2x256x256x256 .f32 := Host.absf main_arg0
  let main_cst_3 : FVec F S_ .f32 := constant S_ .f32 0x7F800000#32
  let main_v11 : FVec F S2x256x256x256 .f32 := broadcastInDim S2x256x256x256 ![] bcast_S_S2x256x256x256 main_cst_3
  let main_v12 : IVec S2x256x256x256 1 := cmpf .olt main_v10 main_v11
  let main_c : IVec S_ 1 := constantI S_ 1 1#1
  let main_v13 : IVec S_ 1 := (fun x v => Host.reduce IntOp.andi x v reducesTo_S2x256x256x256_S_d0_1_2_3 h_S_) main_v12 main_c
  let main_v14 : FVec F S2x256x256x256 .f32 := Host.absf main_arg1
  let main_cst_4 : FVec F S_ .f32 := constant S_ .f32 0x7F800000#32
  let main_v15 : FVec F S2x256x256x256 .f32 := broadcastInDim S2x256x256x256 ![] bcast_S_S2x256x256x256 main_cst_4
  let main_v16 : IVec S2x256x256x256 1 := cmpf .olt main_v14 main_v15
  fn_part1 (F := F) main_v4 main_v9 main_v13 main_v16
-- ==== Kernel.lean ====
abbrev S2x256x256x256 : Shape := ⟨4, ![2, 256, 256, 256]⟩
abbrev S262144x128 : Shape := ⟨2, ![262144, 128]⟩
abbrev S32x32 : Shape := ⟨2, ![32, 32]⟩
abbrev S512x128 : Shape := ⟨2, ![512, 128]⟩
abbrev S1x32 : Shape := ⟨2, ![1, 32]⟩
abbrev S32 : Shape := ⟨1, ![32]⟩
abbrev S512x1x128 : Shape := ⟨3, ![512, 1, 128]⟩
abbrev S1x32x1 : Shape := ⟨3, ![1, 32, 1]⟩
abbrev S512x32x128 : Shape := ⟨3, ![512, 32, 128]⟩
abbrev S512x32x32 : Shape := ⟨3, ![512, 32, 32]⟩
abbrev S_ : Shape := ⟨0, ![]⟩
abbrev S32x1 : Shape := ⟨2, ![32, 1]⟩

abbrev nBuf : Space → Nat
  | .hbm => 41
  | .vmem => 6
  | .smem => 0
  | _ => 0

abbrev bufTy : (tb : Table) → Fin (tcTables nBuf tb) → BufTy
  | .hbm, ⟨0, _⟩ => ⟨S2x256x256x256, .f32⟩
  | .hbm, ⟨1, _⟩ => ⟨S2x256x256x256, .f32⟩
  | .hbm, ⟨2, _⟩ => ⟨S262144x128, .f32⟩
  | .hbm, ⟨3, _⟩ => ⟨S262144x128, .f32⟩
  | .hbm, ⟨4, _⟩ => ⟨S32x32, .f32⟩
  | .hbm, ⟨5, _⟩ => ⟨S_, .f32⟩
  | .hbm, ⟨6, _⟩ => ⟨S_, .f32⟩
  | .hbm, ⟨7, _⟩ => ⟨S32x32, .f32⟩
  | .hbm, ⟨8, _⟩ => ⟨S32x32, .f32⟩
  | .hbm, ⟨9, _⟩ => ⟨S_, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S_, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S32x1, .f32⟩
  | .hbm, ⟨18, _⟩ => ⟨S_, .f32⟩
  | .hbm, ⟨19, _⟩ => ⟨S32x1, .f32⟩
  | .hbm, ⟨20, _⟩ => ⟨S32x1, .f32⟩
  | .hbm, ⟨21, _⟩ => ⟨S32x1, .f32⟩
  | .hbm, ⟨22, _⟩ => ⟨S32x32, .f32⟩
  | .hbm, ⟨23, _⟩ => ⟨S32x32, .f32⟩
  | .hbm, ⟨24, _⟩ => ⟨S1x32, .f32⟩
  | .hbm, ⟨25, _⟩ => ⟨S_, .f32⟩
  | .hbm, ⟨26, _⟩ => ⟨S1x32, .f32⟩
  | .hbm, ⟨27, _⟩ => ⟨S1x32, .f32⟩
  | .hbm, ⟨28, _⟩ => ⟨S1x32, .f32⟩
  | .hbm, ⟨29, _⟩ => ⟨S32x32, .f32⟩
  | .hbm, ⟨30, _⟩ => ⟨S32x32, .f32⟩
  | .hbm, ⟨31, _⟩ => ⟨S32x32, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S32x32, .f32⟩
  | .local _ .vmem, ⟨5, _⟩ => ⟨S32x32, .f32⟩
  | _, _ => ⟨S2x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v44 : BitVec 1 := Scalar.cmpi .eq arg0 c511_i32
  let v45 : BitVec 32 := Scalar.extui v44
  let c0_i32_13 : BitVec 32 := 0#32
  let v46 : BitVec 1 := Scalar.cmpi .ne v45 c0_i32_13
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S2x256x256x256_S262144x128 : S2x256x256x256.ShapeCasts S262144x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S1x32_d1_w32 : S1x32.Iotas .tc 32 [1]
  shapeCasts_S1x32_S32 : S1x32.ShapeCasts S32
  shapeCasts_S512x128_S512x1x128 : S512x128.ShapeCasts S512x1x128
  shapeCasts_S32_S1x32x1 : S32.ShapeCasts S1x32x1
  broadcasts_S512x1x128_S512x32x128 : S512x1x128.Broadcasts S512x32x128
  broadcasts_S1x32x1_S512x32x128 : S1x32x1.Broadcasts S512x32x128
  natLt_1_32 : 1 < 32
  bitsLt_bf16_f32 : FTy.bits .bf16 < FTy.bits .f32
  reduces_S512x32x32_S32x32 : S512x32x32.Reduces [0] S32x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  reducesTo_S32x32_S_d0_1 : S32x32.ReducesTo [0, 1] S_
  h_S_ : 0 < S_.numel
  bcast_S_S32x32 : S_.BroadcastsInDim S32x32 (![] : Fin 0 → Fin S32x32.rank)
  reducesTo_S32x32_S32_d1 : S32x32.ReducesTo [1] S32
  reducesTo_S32x32_S32_d0 : S32x32.ReducesTo [0] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32_0_1 : S32x1.BroadcastsInDim S32x32 (![0, 1] : Fin 2 → Fin S32x32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S32x32_0_1 : S1x32.BroadcastsInDim S32x32 (![0, 1] : Fin 2 → Fin S32x32.rank)
  dot_S512x32x128_S512x32x128_S512x32x32_2_2_1_1_0_0_wf : DotDims.WF S512x32x128 S512x32x128 S512x32x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S262144x128.size a
  hwx0_0 : ∀ i : grid0.Coords, EltTy.bits .f32 = 32 ∨ (Rect.block (s := S262144x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S262144x128.size a
  hwx0_1 : ∀ i : grid0.Coords, EltTy.bits .f32 = 32 ∨ (Rect.block (s := S262144x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)

variable [Facts₀]

def dot_S512x32x128_S512x32x128_S512x32x32_2_2_1_1_0_0 : DotDims S512x32x128 S512x32x128 S512x32x32 where
  lhsContracting := [2]
  rhsContracting := [2]
  lhsNonContracting := [1]
  rhsNonContracting := [1]
  lhsBatch := [0]
  rhsBatch := [0]
  wf := dot_S512x32x128_S512x32x128_S512x32x32_2_2_1_1_0_0_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x32.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x256x256x256 : Shape := ⟨4, ![2, 256, 256, 256]⟩
abbrev S_ : Shape := ⟨0, ![]⟩
abbrev S33554432 : Shape := ⟨1, ![33554432]⟩
abbrev S1024 : Shape := ⟨1, ![1024]⟩
abbrev S33554432x1 : Shape := ⟨2, ![33554432, 1]⟩
abbrev S32x32 : Shape := ⟨2, ![32, 32]⟩
abbrev S32 : Shape := ⟨1, ![32]⟩
abbrev S32x1 : Shape := ⟨2, ![32, 1]⟩
abbrev S1x32 : Shape := ⟨2, ![1, 32]⟩

abbrev nBuf : Space → Nat
  | .hbm => 72
  | .vmem => 0
  | .smem => 0
  | _ => 0

abbrev bufTy : (tb : Table) → Fin (tcTables nBuf tb) → BufTy
  | .hbm, ⟨0, _⟩ => ⟨S2x256x256x256, .f32⟩
  | .hbm, ⟨1, _⟩ => ⟨S2x256x256x256, .f32⟩
  | .hbm, ⟨2, _⟩ => ⟨S_, .f32⟩
  | .hbm, ⟨3, _⟩ => ⟨S2x256x256x256, .f32⟩
  | .hbm, ⟨4, _⟩ => ⟨S2x256x256x256, .f32⟩
  | .hbm, ⟨5, _⟩ => ⟨S_, .f32⟩
  | .hbm, ⟨6, _⟩ => ⟨S2x256x256x256, .f32⟩
  | .hbm, ⟨7, _⟩ => ⟨S2x256x256x256, .f32⟩
  | .hbm, ⟨8, _⟩ => ⟨S2x256x256x256, .f32⟩
  | .hbm, ⟨9, _⟩ => ⟨S_, .f32⟩
  | .hbm, ⟨10, _⟩ => ⟨S2x256x256x256, .f32⟩
  | .hbm, ⟨11, _⟩ => ⟨S2x256x256x256, .f32⟩
  | .hbm, ⟨12, _⟩ => ⟨S_, .f32⟩
  | .hbm, ⟨13, _⟩ => ⟨S2x256x256x256, .f32⟩
  | .hbm, ⟨14, _⟩ => ⟨S2x256x256x256, .f32⟩
  | .hbm, ⟨15, _⟩ => ⟨S2x256x256x256, .f32⟩
  | .hbm, ⟨16, _⟩ => ⟨S_, .f32⟩
  | .hbm, ⟨17, _⟩ => ⟨S2x256x256x256, .f32⟩
  | .hbm, ⟨18, _⟩ => ⟨S2x256x256x256, .f32⟩
  | .hbm, ⟨19, _⟩ => ⟨S2x256x256x256, .f32⟩
  | .hbm, ⟨20, _⟩ => ⟨S2x256x256x256, .i32⟩
  | .hbm, ⟨21, _⟩ => ⟨S33554432, .i32⟩
  | .hbm, ⟨22, _⟩ => ⟨S_, .f32⟩
  | .hbm, ⟨23, _⟩ => ⟨S1024, .f32⟩
  | .hbm, ⟨24, _⟩ => ⟨S_, .i32⟩
  | .hbm, ⟨25, _⟩ => ⟨S33554432, .i32⟩
  | .hbm, ⟨26, _⟩ => ⟨S33554432, .i1⟩
  | .hbm, ⟨27, _⟩ => ⟨S_, .i32⟩
  | .hbm, ⟨28, _⟩ => ⟨S33554432, .i32⟩
  | .hbm, ⟨29, _⟩ => ⟨S33554432, .i32⟩
  | .hbm, ⟨30, _⟩ => ⟨S33554432, .i32⟩
  | .hbm, ⟨31, _⟩ => ⟨S33554432x1, .i32⟩
  | .hbm, ⟨32, _⟩ => ⟨S_, .f32⟩
  | .hbm, ⟨33, _⟩ => ⟨S33554432, .f32⟩
  | .hbm, ⟨34, _⟩ => ⟨S1024, .f32⟩
  | .hbm, ⟨35, _⟩ => ⟨S32x32, .f32⟩
  | .hbm, ⟨36, _⟩ => ⟨S_, .f32⟩
  | .hbm, ⟨37, _⟩ => ⟨S_, .f32⟩
  | .hbm, ⟨38, _⟩ => ⟨S32x32, .f32⟩
  | .hbm, ⟨39, _⟩ => ⟨S32x32, .f32⟩
  | .hbm, ⟨40, _⟩ => ⟨S_, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S_, .f32⟩
  | .hbm, ⟨45, _⟩ => ⟨S32x32, .f32⟩
  | .hbm, ⟨46, _⟩ => ⟨S32x32, .f32⟩
  | .hbm, ⟨47, _⟩ => ⟨S32x32, .f32⟩
  | .hbm, ⟨48, _⟩ => ⟨S32x1, .f32⟩
  | .hbm, ⟨49, _⟩ => ⟨S_, .f32⟩
  | .hbm, ⟨50, _⟩ => ⟨S32x1, .f32⟩
  | .hbm, ⟨51, _⟩ => ⟨S32x1, .f32⟩
  | .hbm, ⟨52, _⟩ => ⟨S32x1, .f32⟩
  | .hbm, ⟨53, _⟩ => ⟨S32x32, .f32⟩
  | .hbm, ⟨54, _⟩ => ⟨S32x32, .f32⟩
  | .hbm, ⟨55, _⟩ => ⟨S1x32, .f32⟩
  | .hbm, ⟨56, _⟩ => ⟨S_, .f32⟩
  | .hbm, ⟨57, _⟩ => ⟨S1x32, .f32⟩
  | .hbm, ⟨58, _⟩ => ⟨S1x32, .f32⟩
  | .hbm, ⟨59, _⟩ => ⟨S1x32, .f32⟩
  | .hbm, ⟨60, _⟩ => ⟨S32x32, .f32⟩
  | .hbm, ⟨61, _⟩ => ⟨S32x32, .f32⟩
  | .hbm, ⟨62, _⟩ => ⟨S32x32, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S2x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_13 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_14 : Ref sig .tc := ⟨.hbm, 68, rfl⟩
abbrev main_v50 : Ref sig .tc := ⟨.hbm, 69, rfl⟩
abbrev main_cst_15 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  bcast_S_S2x256x256x256 : S_.BroadcastsInDim S2x256x256x256 (![] : Fin 0 → Fin S2x256x256x256.rank)
  shapeCasts_S2x256x256x256_S33554432 : S2x256x256x256.ShapeCasts S33554432
  bcast_S_S1024 : S_.BroadcastsInDim S1024 (![] : Fin 0 → Fin S1024.rank)
  bcast_S_S33554432 : S_.BroadcastsInDim S33554432 (![] : Fin 0 → Fin S33554432.rank)
  bcast_S33554432_S33554432x1_0 : S33554432.BroadcastsInDim S33554432x1 (![0] : Fin 1 → Fin S33554432x1.rank)
  shapeCasts_S1024_S32x32 : S1024.ShapeCasts S32x32
  reducesTo_S32x32_S_d0_1 : S32x32.ReducesTo [0, 1] S_
  h_S_ : 0 < S_.numel
  bcast_S_S32x32 : S_.BroadcastsInDim S32x32 (![] : Fin 0 → Fin S32x32.rank)
  reducesTo_S32x32_S32_d1 : S32x32.ReducesTo [1] S32
  reducesTo_S32x32_S32_d0 : S32x32.ReducesTo [0] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32_0_1 : S32x1.BroadcastsInDim S32x32 (![0, 1] : Fin 2 → Fin S32x32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S32x32_0_1 : S1x32.BroadcastsInDim S32x32 (![0, 1] : Fin 2 → Fin S32x32.rank)
  scatter_S1024_S33554432x1_S33554432_n_0_0_1_wf : ScatterDims.WF S1024 S33554432x1 S33554432 [] [0] [0] 1

variable [Facts₀]

def scatter_S1024_S33554432x1_S33554432_n_0_0_1 : ScatterDims S1024 S33554432x1 S33554432 where
  updateWindowDims := []
  insertedWindowDims := [0]
  scatterDimsToOperandDims := [0]
  indexVectorDim := 1
  wf := scatter_S1024_S33554432x1_S33554432_n_0_0_1_wf

class Facts : Prop extends Facts₀ where

variable [Facts]
-- ==== Proof.Quant.lean ====
/-
  The quantisation both programs apply to an intensity, and the histogram cell an element falls in.

  An intensity x is sent to the level  lvl x = roundeven (x / 255 * 31)  (an extended real), and to the bin word
  binW x, that level as a 32-bit integer.  One program counts, for every cell (a, b) of the 32 x 32 histogram, the
  elements whose two bin words are a and b.  The other forms the flat word  cellW x y = int (lvl x * 32 + lvl y),
  adds 1024 to it when it is negative (normW), and counts the elements whose word is 32 a + b.
  When both levels lie in [0, 31] they are integers n, m of that range, the flat word is 32 n + m, it is not negative,
  and  32 n + m = 32 a + b  holds exactly when  n = a  and  m = b :  the two counts agree (countR_eq_count).
-/
import Idealize.ShloMosaic.PureOps.Ideal
import Idealize.ShloMosaic.Lib.ValueIdx

noncomputable section

open scoped BigOperators

namespace Cert.Hist

open Idealize.ShloMosaic

/-- The literal 255, as the extended real its float pattern denotes. -/
def c255 : EReal := Ideal.ofBits .f32 0x437F0000#32
/-- The literal 31. -/
def c31 : EReal := Ideal.ofBits .f32 0x41F80000#32
/-- The literal 32. -/
def c32 : EReal := Ideal.ofBits .f32 0x42000000#32
/-- The literal 0. -/
def c0 : EReal := Ideal.ofBits .f32 0x00000000#32

/-- The level of an intensity: x / 255 * 31, rounded to the nearest integer, ties to even. -/
def lvl (x : EReal) : EReal := Ideal.liftRound Ideal.roundHalfEven (Ideal.div x c255 * c31)

/-- The bin word of an intensity: its level as a 32-bit integer. -/
def binW (x : EReal) : BitVec 32 := Ideal.fptosi 32 (lvl x)

/-- The flat cell word of a pair of intensities: lvl x * 32 + lvl y as a 32-bit integer. -/
def cellW (x y : EReal) : BitVec 32 := Ideal.fptosi 32 (lvl x * c32 + lvl y)

/-- A negative index word counts from the end of a table of 1024 entries. -/
def normW (w : BitVec 32) : BitVec 32 := if w.slt 0#32 = true then w + 1024#32 else w

/-- The level of an intensity is one of the 32 bins. -/
def InRange (x : EReal) : Prop := c0 ≤ lvl x ∧ lvl x ≤ c31

/-- The indicator of a proposition, as an extended real. -/
def ind (p : Prop) [Decidable p] : EReal := if p then 1 else 0

/-- How many elements fall in cell (a, b), by comparing each element's two bin words with a and b. -/
def count {ι : Type} [Fintype ι] (X Y : ι → EReal) (a b : Fin 32) : EReal :=
  ∑ e, ind (binW (X e) = BitVec.ofNat 32 a.val ∧ binW (Y e) = BitVec.ofNat 32 b.val)

/-- How many elements have the flat cell word k, read signed after the wrap of negative words. -/
def countR {ι : Type} [Fintype ι] (X Y : ι → EReal) (k : ℕ) : EReal :=
  ∑ e, ind ((normW (cellW (X e) (Y e))).toInt = (k : ℤ))

/-- The pattern of 0.0 denotes 0. -/
private theorem c0_val : c0 = 0 := by
  unfold c0; simp [Ideal.ofBits, Ideal.ieee]

/-- The pattern of 31.0 denotes 31. -/
private theorem c31_val : c31 = ((31 : ℝ) : EReal) := by
  unfold c31; simp [Ideal.ofBits, Ideal.ieee, -EReal.coe_mul]; norm_num

/-- The pattern of 32.0 denotes 32. -/
private theorem c32_val : c32 = ((32 : ℝ) : EReal) := by
  unfold c32; simp [Ideal.ofBits, Ideal.ieee, -EReal.coe_mul]; norm_num

/-- A level in range is an integer n with 0 ≤ n ≤ 31. -/
theorem lvl_int {x : EReal} (hx : InRange x) : ∃ n : ℤ, 0 ≤ n ∧ n ≤ 31 ∧ lvl x = ((n : ℝ) : EReal) := by
  obtain ⟨h0, h1⟩ := hx
  rw [c0_val] at h0
  rw [c31_val] at h1
  unfold lvl at h0 h1 ⊢
  generalize Ideal.div x c255 * c31 = t at h0 h1 ⊢
  induction t using EReal.rec with
  | bot => simp at h0
  | top => simp at h1
  | coe r =>
    rw [Ideal.liftRound_coe] at h0 h1 ⊢
    refine ⟨Ideal.roundHalfEven r, ?_, ?_, rfl⟩
    · have : ((0 : ℝ) : EReal) ≤ ((Ideal.roundHalfEven r : ℝ) : EReal) := by simpa using h0
      have := EReal.coe_le_coe_iff.mp this
      exact_mod_cast this
    · have := EReal.coe_le_coe_iff.mp h1
      exact_mod_cast this

/-- An integer-valued real inside the signed 32-bit range converts to the word of that integer:
    floor and ceiling of an integer are the integer, and the clamp does not bind. -/
private theorem fptosi_int (k : ℤ) (hlo : -2147483648 ≤ k) (hhi : k ≤ 2147483647) :
    Ideal.fptosi 32 (((k : ℝ)) : EReal) = BitVec.ofInt 32 k := by
  unfold Ideal.fptosi
  rw [Ideal.toIntClamped_coe]
  congr 1
  have e : (if (0 : ℝ) ≤ (k : ℝ) then ⌊(k : ℝ)⌋ else ⌈(k : ℝ)⌉) = k := by
    split <;> simp
  rw [e]
  norm_num
  omega

/-- The signed reading of the word of a non-negative integer below 2^31 is that integer. -/
private theorem toInt_ofInt_small (k : ℤ) (h0 : 0 ≤ k) (h1 : k < 2147483648) : (BitVec.ofInt 32 k).toInt = k := by
  rw [BitVec.toInt_ofInt]
  unfold Int.bmod
  norm_num
  omega

/-- Such a word is not negative, so the wrap leaves it. -/
private theorem normW_small (k : ℤ) (h0 : 0 ≤ k) (h1 : k < 2147483648) : normW (BitVec.ofInt 32 k) = BitVec.ofInt 32 k := by
  unfold normW
  have : (BitVec.ofInt 32 k).slt 0#32 = false := by
    rw [BitVec.slt, toInt_ofInt_small k h0 h1]
    simp
    omega
  rw [this]; simp

/-- The word of an integer n of [0, 31] is the word of a bin number a exactly when n = a. -/
private theorem ofInt_eq_ofNat_iff (n : ℤ) (h0 : 0 ≤ n) (h1 : n ≤ 31) (a : Fin 32) :
    BitVec.ofInt 32 n = BitVec.ofNat 32 a.val ↔ n = (a.val : ℤ) := by
  constructor
  · intro h
    have e : (BitVec.ofNat 32 a.val).toInt = (a.val : ℤ) := by
      rw [← BitVec.ofInt_natCast]
      exact toInt_ofInt_small _ (by omega) (by have := a.isLt; omega)
    have := congrArg BitVec.toInt h
    rw [toInt_ofInt_small n h0 (by omega), e] at this
    exact this
  · intro h
    rw [h, BitVec.ofInt_natCast]

/-- THE CELL LEMMA. With both levels in range, the flat word (wrapped) is 32 a + b exactly when the bin words are a and b. -/
theorem cell_iff {x y : EReal} (hx : InRange x) (hy : InRange y) (a b : Fin 32) :
    (normW (cellW x y)).toInt = ((32 * a.val + b.val : ℕ) : ℤ)
      ↔ (binW x = BitVec.ofNat 32 a.val ∧ binW y = BitVec.ofNat 32 b.val) := by
  obtain ⟨n, hn0, hn1, hn⟩ := lvl_int hx
  obtain ⟨m, hm0, hm1, hm⟩ := lvl_int hy
  have hcell : cellW x y = BitVec.ofInt 32 (32 * n + m) := by
    unfold cellW
    rw [hn, hm, c32_val, ← EReal.coe_mul, ← EReal.coe_add]
    have : ((n : ℝ) * 32 + (m : ℝ)) = (((32 * n + m : ℤ)) : ℝ) := by push_cast; ring
    rw [this]
    exact fptosi_int _ (by omega) (by omega)
  have hbx : binW x = BitVec.ofInt 32 n := by
    unfold binW; rw [hn]; exact fptosi_int _ (by omega) (by omega)
  have hby : binW y = BitVec.ofInt 32 m := by
    unfold binW; rw [hm]; exact fptosi_int _ (by omega) (by omega)
  rw [hcell, hbx, hby, normW_small _ (by omega) (by omega), toInt_ofInt_small _ (by omega) (by omega),
    ofInt_eq_ofNat_iff n hn0 hn1 a, ofInt_eq_ofNat_iff m hm0 hm1 b]
  have := a.isLt
  have := b.isLt
  push_cast
  omega

/-- The two ways of counting agree when every level is in range. -/
theorem countR_eq_count {ι : Type} [Fintype ι] (X Y : ι → EReal) (h : ∀ e, InRange (X e) ∧ InRange (Y e)) (a b : Fin 32) :
    countR X Y (32 * a.val + b.val) = count X Y a b := by
  unfold countR count
  refine Finset.sum_congr rfl fun e _ => ?_
  unfold ind
  simp only [cell_iff (h e).1 (h e).2 a b]

/-- Counting is insensitive to how the elements are enumerated. -/
theorem count_equiv {ι κ : Type} [Fintype ι] [Fintype κ] (σ : κ ≃ ι) (X Y : ι → EReal) (a b : Fin 32) :
    count (fun k => X (σ k)) (fun k => Y (σ k)) a b = count X Y a b := by
  unfold count
  exact Fintype.sum_equiv σ _ _ fun _ => rfl

/-- A one-hot entry: the comparison of a bin word with a bin number, widened to 32 bits and read as a float, is the indicator. -/
theorem onehot_eq (w a : BitVec 32) :
    ((((IntOp.cmpi .eq w a).setWidth 32).toInt : ℝ) : EReal) = ind (w = a) := by
  by_cases h : w = a
  · subst h
    have e : ((BitVec.ofBool true).setWidth 32).toInt = 1 := by decide
    simp [IntOp.cmpi, ind, e]
  · have e : ((BitVec.ofBool false).setWidth 32).toInt = 0 := by decide
    have hb : (w == a) = false := by simpa using h
    simp [IntOp.cmpi, ind, h, hb, e]

/-- The product of two indicators is the indicator of the conjunction. -/
theorem ind_mul (p q : Prop) [Decidable p] [Decidable q] : ind p * ind q = ind (p ∧ q) := by
  by_cases hp : p <;> by_cases hq : q <;> simp [ind, hp, hq]

/-- The wrap of a negative index word, as the compare-and-select that computes it. -/
theorem select_norm (w : BitVec 32) :
    Scalar.select (IntOp.cmpi .slt w 0#32) (IntOp.addi w 1024#32) w = normW w := by
  unfold Scalar.select IntOp.cmpi IntOp.addi normW
  cases h : w.slt 0#32 <;> simp

/-- The float pattern of 1.0 denotes 1. -/
theorem ofBits_one : Ideal.ofBits .f32 0x3F800000#32 = (1 : EReal) := by
  simp [Ideal.ofBits, Ideal.ieee, -EReal.coe_mul]; norm_num

/-- The float pattern of 0.0 denotes 0. -/
theorem c0_eq : c0 = 0 := by
  exact c0_val

end Cert.Hist

end
-- ==== Proof.Tail.lean ====
/-
  What both programs do with the 32 x 32 histogram h once it is built: one function of h.

  p = h / (sum of all of h) is the joint distribution, its row sums and column sums the two marginals, and with
  eps the float literal of 1e-5 the mutual information is
      MI = sum over (a, b) of  p[a,b] * (log (p[a,b] + eps) - log (rowsum[a] + eps) - log (colsum[b] + eps)).
  The result is 1 / (1 + exp MI), the logistic function at -MI (the program negates twice before the exponential).
  The shape relations the operations take are passed as hypotheses, so that either program can supply its own.
-/
import Idealize.ShloMosaic.PureOps.Ideal
import Idealize.ShloMosaic.PureOps

noncomputable section

namespace Cert.Tail

open Idealize.ShloMosaic

abbrev S32x32 : Shape := ⟨2, ![32, 32]⟩
abbrev S1x32 : Shape := ⟨2, ![1, 32]⟩
abbrev S32x1 : Shape := ⟨2, ![32, 1]⟩
abbrev S32 : Shape := ⟨1, ![32]⟩
abbrev S_ : Shape := ⟨0, ![]⟩

/-- The shape relations the operations after the histogram take. -/
structure Rel : Prop where
  red_all : S32x32.ReducesTo [0, 1] S_
  pos : 0 < S_.numel
  b_all : S_.BroadcastsInDim S32x32 (![] : Fin 0 → Fin S32x32.rank)
  red_cols : S32x32.ReducesTo [1] S32
  red_rows : S32x32.ReducesTo [0] S32
  b_col : S32.BroadcastsInDim S32x1 (![0] : Fin 1 → Fin S32x1.rank)
  b_eps_col : S_.BroadcastsInDim S32x1 (![] : Fin 0 → Fin S32x1.rank)
  b_col_all : S32x1.BroadcastsInDim S32x32 (![0, 1] : Fin 2 → Fin S32x32.rank)
  b_row : S32.BroadcastsInDim S1x32 (![1] : Fin 1 → Fin S1x32.rank)
  b_eps_row : S_.BroadcastsInDim S1x32 (![] : Fin 0 → Fin S1x32.rank)
  b_row_all : S1x32.BroadcastsInDim S32x32 (![0, 1] : Fin 2 → Fin S32x32.rank)

/-- The logistic of minus the mutual information of the normalised histogram. -/
def tail (R : Rel) (h : FVec Ideal S32x32 .f32) : FVec Ideal S_ .f32 :=
  let zero : FVec Ideal S_ .f32 := constant S_ .f32 0x00000000#32
  let eps : FVec Ideal S_ .f32 := constant S_ .f32 0x3727C5AC#32
  let one : FVec Ideal S_ .f32 := constant S_ .f32 0x3F800000#32
  let total : FVec Ideal S_ .f32 := Host.reduceAdd h zero R.red_all R.pos
  let p : FVec Ideal S32x32 .f32 := Host.divf h (broadcastInDim S32x32 ![] R.b_all total)
  let rows : FVec Ideal S32 .f32 := Host.reduceAdd p zero R.red_cols R.pos
  let cols : FVec Ideal S32 .f32 := Host.reduceAdd p zero R.red_rows R.pos
  let lp : FVec Ideal S32x32 .f32 := Host.log (addf p (broadcastInDim S32x32 ![] R.b_all eps))
  let lr : FVec Ideal S32x1 .f32 := Host.log (addf (broadcastInDim S32x1 ![0] R.b_col rows) (broadcastInDim S32x1 ![] R.b_eps_col eps))
  let d1 : FVec Ideal S32x32 .f32 := subf lp (broadcastInDim S32x32 ![0, 1] R.b_col_all lr)
  let lc : FVec Ideal S1x32 .f32 := Host.log (addf (broadcastInDim S1x32 ![1] R.b_row cols) (broadcastInDim S1x32 ![] R.b_eps_row eps))
  let d2 : FVec Ideal S32x32 .f32 := subf d1 (broadcastInDim S32x32 ![0, 1] R.b_row_all lc)
  let mi : FVec Ideal S_ .f32 := Host.reduceAdd (mulf p d2) zero R.red_all R.pos
  Host.divf one (addf one (Host.exp (Host.negf (Host.negf mi))))

end Cert.Tail

end
-- ==== Proof.PreRange.lean ====
/-
  What the precondition says of one element.

  The precondition is a conjunction of four "for all elements" statements: both inputs are finite, and the level
  roundeven (x / 255 * 31) of every element x of either input lies between 0 and 31.  Read at one index, the last two
  say that the element's level is one of the 32 bins.
-/
import proofs.«140801_j87789131530707_1_alg».proof.Pre_finite_inputs
import proofs.«140801_j87789131530707_1_alg».proof.Proof.Gen.Pre_finite_inputs
import proofs.«140801_j87789131530707_1_alg».proof.Proof.Quant
import Idealize.ShloMosaic.Lib.ReduceAll
import Idealize.ShloMosaic.Lib.StableHlo.Predicate
import Idealize.ShloMosaic.Lib.ValueIdx

noncomputable section

namespace Cert.PreRange

open Idealize.ShloMosaic Cert.Hist

/-- A shape of rank 0 has one index. -/
local instance : Subsingleton Cert.Pre_finite_inputs.S_.Idx := ⟨fun _ _ => funext fun d => d.elim0⟩

/-- The comparison "x ≥ y" came out true: y ≤ x. -/
theorem le_of_cmp_oge {x y : EReal} (h : Ideal.cmp .oge x y = 1#1) : y ≤ x :=
  of_decide_eq_true ((StableHlo.Predicate.ofBool_eq_one_iff _).1 h)

/-- The comparison "x ≤ y" came out true: x ≤ y. -/
theorem le_of_cmp_ole {x y : EReal} (h : Ideal.cmp .ole x y = 1#1) : x ≤ y :=
  of_decide_eq_true ((StableHlo.Predicate.ofBool_eq_one_iff _).1 h)

/-- Under the precondition every element of either input has its level in range. -/
theorem inRange_of_pre [Cert.Pre_finite_inputs.Facts]
    (I J : FVec Ideal Cert.Pre_finite_inputs.S2x256x256x256 .f32)
    (h : Cert.Pre_finite_inputs.fn (F := Ideal) I J = fun _ => 1#1)
    (i : Cert.Pre_finite_inputs.S2x256x256x256.Idx) :
    InRange (I i) ∧ InRange (J i) := by
  -- the predicate has one index; read it there and open the printed chain of operations
  have e := congrFun h ValueIdx.ix0
  dsimp only [Cert.Pre_finite_inputs.fn, Cert.Pre_finite_inputs.fn_part1] at e
  -- the result is the conjunction of four "for all" statements; keep the third and the fourth
  obtain ⟨e123, e4⟩ := IntOp.andi_eq_one.1 e
  obtain ⟨_, e3⟩ := IntOp.andi_eq_one.1 e123
  -- a conjunction over all elements that came out true is true of the element i
  have a3 := Host.reduce_andi_all _ _ _ _ _ e3 i
  have a4 := Host.reduce_andi_all _ _ _ _ _ e4 i
  obtain ⟨a3l, a3u⟩ := IntOp.andi_eq_one.1 a3
  obtain ⟨a4l, a4u⟩ := IntOp.andi_eq_one.1 a4
  -- at i the compared terms are the level of the element and the constants 0 and 31, by unfolding
  exact ⟨⟨le_of_cmp_oge a3l, le_of_cmp_ole a3u⟩, ⟨le_of_cmp_oge a4l, le_of_cmp_ole a4u⟩⟩

end Cert.PreRange

end
-- ==== Proof.KNames.lean ====
/-
  Names, at their literal types, for what the kernel's run is stated over: the block of each input a grid point
  reads, the two input arrays as the region finds them, and the histogram array as the run leaves it.
-/
import proofs.«140801_j87789131530707_1_alg».proof.Proof.Gen.KernelIdeal.Frame
import proofs.«140801_j87789131530707_1_alg».proof.Proof.Tail

noncomputable section

namespace Cert.KernelIdeal.KNames

open Idealize.ShloMosaic Idealize.SL.Sem Cert.KernelIdeal Cert.KernelIdeal.Facts₀ Cert.KernelIdeal.Facts

variable (m : (ℓ : Loc nD τ sig) → Buf (Elt Ideal) ℓ)

/-- The 512 x 128 block of the first input that grid point t reads. -/
abbrev xblk (c : Dev nD) (t : Fin cfg0.N) : Vec Ideal S512x128 .f32 := Gen.iblk m c 0 t
/-- The 512 x 128 block of the second input that grid point t reads. -/
abbrev yblk (c : Dev nD) (t : Fin cfg0.N) : Vec Ideal S512x128 .f32 := Gen.iblk m c 1 t
/-- The first input as the region finds it: 262144 rows of 128 lanes. -/
abbrev xarr (c : Dev nD) : Vec Ideal S262144x128 .f32 := Gen.V m c main_v0
/-- The second input as the region finds it. -/
abbrev yarr (c : Dev nD) : Vec Ideal S262144x128 .f32 := Gen.V m c main_v1
/-- The first argument of the program, a 2 x 256 x 256 x 256 array. -/
abbrev xarg (c : Dev nD) : Vec Ideal S2x256x256x256 .f32 := m ((c.tc : Thread nD τ).loc main_arg0)
/-- The second argument of the program. -/
abbrev yarg (c : Dev nD) : Vec Ideal S2x256x256x256 .f32 := m ((c.tc : Thread nD τ).loc main_arg1)
/-- The 32 x 32 histogram array after the last grid point has written it back. -/
abbrev outArr (c : Dev nD) : Vec Ideal S32x32 .f32 := (Gen.dats m 0 c).arrAt 2 cfg0.N

/-- The shape relations of the operations after the region, as this program states them. -/
theorem rel : Cert.Tail.Rel where
  red_all := reducesTo_S32x32_S_d0_1
  pos := h_S_
  b_all := bcast_S_S32x32
  red_cols := reducesTo_S32x32_S32_d1
  red_rows := reducesTo_S32x32_S32_d0
  b_col := bcast_S32_S32x1_0
  b_eps_col := bcast_S_S32x1
  b_col_all := bcast_S32x1_S32x32_0_1
  b_row := bcast_S32_S1x32_1
  b_eps_row := bcast_S_S1x32
  b_row_all := bcast_S1x32_S32x32_0_1

end Cert.KernelIdeal.KNames

end
-- ==== Proof.KTile.lean ====
/-
  What one grid point adds to the histogram.

  At a point the body holds two 512 x 128 blocks x0, x1 of intensities and the running 32 x 32 histogram acc.
  It turns every element into its bin word, compares the bin words of x0 with the 32 bin numbers along a new
  middle axis (a one-hot array of shape 512 x 32 x 128) and likewise those of x1, contracts the two one-hot arrays
  over the lane axis row by row (a 512 x 32 x 32 array of per-row counts), sums that over the 512 rows, and adds the
  result to acc.  Cell (a, b) therefore gains the number of elements of the two blocks whose bin words are a and b.
-/
import proofs.«140801_j87789131530707_1_alg».proof.Proof.Gen.KernelIdeal.Skeleton
import proofs.«140801_j87789131530707_1_alg».proof.Proof.Quant
import Idealize.ShloMosaic.Lib.ValueIdx
import Idealize.ShloMosaic.Lib.Pipeline.Value
import Idealize.ShloMosaic.PureOps.Ideal.Laws

noncomputable section

open scoped BigOperators

namespace Cert.KernelIdeal.KTile

open Idealize.ShloMosaic Idealize.ShloMosaic.ValueIdx Cert.KernelIdeal Cert.Hist

/-- The number of elements of the two blocks that fall in cell (a, b). -/
def tile (x0 x1 : Vec Ideal S512x128 .f32) (a b : Fin 32) : EReal :=
  ∑ r : Fin 512, ∑ l : Fin 128,
    ind (binW (x0 (ix2 r l)) = BitVec.ofNat 32 a.val ∧ binW (x1 (ix2 r l)) = BitVec.ofNat 32 b.val)

/-! ### Layout: the two operands of the comparison at (r, a, l) -/

/-- A 512 x 128 array viewed as 512 x 1 x 128 and repeated 32 times along the middle axis reads, at (r, a, l),
    the array at (r, l). -/
theorem rows_apply {α : Type} (w : S512x128.Idx → α) (r : Fin 512) (a : Fin 32) (l : Fin 128) :
    broadcastTo S512x32x128 (shapeCast S512x1x128 w Gen.shapeCasts_S512x128_S512x1x128)
      Gen.broadcasts_S512x1x128_S512x32x128 (ix3 r a l) = w (ix2 r l) := by
  refine (broadcastTo_apply _ _ (ix3 r a l) (ix3 r (0 : Fin 1) l) (fun d => ?_)).trans ?_
  · match d with
    | ⟨0, _⟩ => rfl
    | ⟨1, _⟩ => rfl
    | ⟨2, _⟩ => rfl
  · refine shapeCast_apply _ _ (ix3 r (0 : Fin 1) l) (ix2 r l) ?_
    rw [Shape.rowMajor_val_two, Shape.rowMajor_val_three]
    show r.val * 128 + l.val = (r.val * 1 + 0) * 128 + l.val
    omega

/-- The row of bin numbers 0 … 31, viewed as 1 x 32 x 1 and repeated over rows and lanes, reads a at (r, a, l). -/
theorem bins_apply (r : Fin 512) (a : Fin 32) (l : Fin 128) :
    broadcastTo S512x32x128
      (shapeCast S1x32x1 (shapeCast S32 (iota .tc S1x32 32 [1] Gen.iota_S1x32_d1_w32) Gen.shapeCasts_S1x32_S32)
        Gen.shapeCasts_S32_S1x32x1)
      Gen.broadcasts_S1x32x1_S512x32x128 (ix3 r a l) = BitVec.ofNat 32 a.val := by
  refine (broadcastTo_apply _ _ (ix3 r a l) (ix3 (0 : Fin 1) a (0 : Fin 1)) (fun d => ?_)).trans ?_
  · match d with
    | ⟨0, _⟩ => rfl
    | ⟨1, _⟩ => rfl
    | ⟨2, _⟩ => rfl
  refine (shapeCast_apply _ _ (ix3 (0 : Fin 1) a (0 : Fin 1)) (ix1 a) ?_).trans ?_
  · rw [Shape.rowMajor_val_one, Shape.rowMajor_val_three]
    show a.val = (0 * 32 + a.val) * 1 + 0
    omega
  refine (shapeCast_apply _ _ (ix1 a) (ix2 (0 : Fin 1) a) ?_).trans ?_
  · rw [Shape.rowMajor_val_two, Shape.rowMajor_val_one]
    show 0 * 32 + a.val = a.val
    omega
  exact iota_single_apply _ _ _ _ _ _

/-! ### The batched product over the lane axis, at an index

The product has batch axis 0 on both operands, contracts axis 2 of both, and its result's axes are the batch axis,
the left operand's axis 1 and the right operand's axis 1. The six lemmas below read the two operand indices
coordinate by coordinate. -/

theorem lhs_mm_0 (i : S512x32x32.Idx) (q : dot_S512x32x128_S512x32x128_S512x32x32_2_2_1_1_0_0.contr.Idx) :
    (dot_S512x32x128_S512x32x128_S512x32x32_2_2_1_1_0_0.lhsIdx i q 0).val = (i 0).val := by
  unfold DotDims.lhsIdx
  rw [dif_pos (show (0 : Fin S512x32x128.rank) ∈ dot_S512x32x128_S512x32x128_S512x32x32_2_2_1_1_0_0.lhsBatch by decide)]
  rfl

theorem lhs_mm_1 (i : S512x32x32.Idx) (q : dot_S512x32x128_S512x32x128_S512x32x32_2_2_1_1_0_0.contr.Idx) :
    (dot_S512x32x128_S512x32x128_S512x32x32_2_2_1_1_0_0.lhsIdx i q 1).val = (i 1).val := by
  unfold DotDims.lhsIdx
  rw [dif_neg (show ¬(1 : Fin S512x32x128.rank) ∈ dot_S512x32x128_S512x32x128_S512x32x32_2_2_1_1_0_0.lhsBatch by decide),
    dif_pos (show (1 : Fin S512x32x128.rank) ∈ dot_S512x32x128_S512x32x128_S512x32x32_2_2_1_1_0_0.lhsNonContracting by decide)]
  rfl

theorem lhs_mm_2 (i : S512x32x32.Idx) (q : dot_S512x32x128_S512x32x128_S512x32x32_2_2_1_1_0_0.contr.Idx) :
    (dot_S512x32x128_S512x32x128_S512x32x32_2_2_1_1_0_0.lhsIdx i q 2).val = (q ⟨0, by decide⟩).val :=
  dot_S512x32x128_S512x32x128_S512x32x32_2_2_1_1_0_0.lhsIdx_val_of_single rfl i q

theorem rhs_mm_0 (i : S512x32x32.Idx) (q : dot_S512x32x128_S512x32x128_S512x32x32_2_2_1_1_0_0.contr.Idx) :
    (dot_S512x32x128_S512x32x128_S512x32x32_2_2_1_1_0_0.rhsIdx i q 0).val = (i 0).val := by
  unfold DotDims.rhsIdx
  rw [dif_pos (show (0 : Fin S512x32x128.rank) ∈ dot_S512x32x128_S512x32x128_S512x32x32_2_2_1_1_0_0.rhsBatch by decide)]
  rfl

theorem rhs_mm_1 (i : S512x32x32.Idx) (q : dot_S512x32x128_S512x32x128_S512x32x32_2_2_1_1_0_0.contr.Idx) :
    (dot_S512x32x128_S512x32x128_S512x32x32_2_2_1_1_0_0.rhsIdx i q 1).val = (i 2).val := by
  unfold DotDims.rhsIdx
  rw [dif_neg (show ¬(1 : Fin S512x32x128.rank) ∈ dot_S512x32x128_S512x32x128_S512x32x32_2_2_1_1_0_0.rhsBatch by decide),
    dif_pos (show (1 : Fin S512x32x128.rank) ∈ dot_S512x32x128_S512x32x128_S512x32x32_2_2_1_1_0_0.rhsNonContracting by decide)]
  rfl

theorem rhs_mm_2 (i : S512x32x32.Idx) (q : dot_S512x32x128_S512x32x128_S512x32x32_2_2_1_1_0_0.contr.Idx) :
    (dot_S512x32x128_S512x32x128_S512x32x32_2_2_1_1_0_0.rhsIdx i q 2).val = (q ⟨0, by decide⟩).val :=
  dot_S512x32x128_S512x32x128_S512x32x32_2_2_1_1_0_0.rhsIdx_val_of_single rfl i q

/-- Entry (r, a, b) of the product into the zero accumulator: the sum over the 128 lanes of the left operand at
    (r, a, l) times the right operand at (r, b, l). -/
theorem mm_apply (p q : FVec Ideal S512x32x128 .bf16) (r : Fin 512) (a b : Fin 32) :
    matmul dot_S512x32x128_S512x32x128_S512x32x32_2_2_1_1_0_0 none p q (constant (F := Ideal) S512x32x32 .f32 0x00000000#32) (ix3 r a b)
      = ∑ l : Fin 128, p (ix3 r a l) * q (ix3 r b l) := by
  simp only [matmul]
  rw [Ideal.matmul_constant_zero_apply,
    ← Equiv.sum_comp (contrEquiv1 dot_S512x32x128_S512x32x128_S512x32x32_2_2_1_1_0_0 128 rfl rfl).symm]
  refine Finset.sum_congr rfl fun k _ => ?_
  have hk := contrEquiv1_symm_val dot_S512x32x128_S512x32x128_S512x32x32_2_2_1_1_0_0 128 rfl rfl k
  have el : dot_S512x32x128_S512x32x128_S512x32x32_2_2_1_1_0_0.lhsIdx (ix3 r a b) ((contrEquiv1 dot_S512x32x128_S512x32x128_S512x32x32_2_2_1_1_0_0 128 rfl rfl).symm k) = ix3 r a k :=
    funext fun d => Fin.ext (by
      match d with
      | ⟨0, _⟩ => exact lhs_mm_0 _ _
      | ⟨1, _⟩ => exact lhs_mm_1 _ _
      | ⟨2, _⟩ => exact (lhs_mm_2 _ _).trans hk)
  have er : dot_S512x32x128_S512x32x128_S512x32x32_2_2_1_1_0_0.rhsIdx (ix3 r a b) ((contrEquiv1 dot_S512x32x128_S512x32x128_S512x32x32_2_2_1_1_0_0 128 rfl rfl).symm k) = ix3 r b k :=
    funext fun d => Fin.ext (by
      match d with
      | ⟨0, _⟩ => exact rhs_mm_0 _ _
      | ⟨1, _⟩ => exact rhs_mm_1 _ _
      | ⟨2, _⟩ => exact (rhs_mm_2 _ _).trans hk)
  rw [el, er]

/-! ### The sum over the rows, at an index -/

/-- Entry (a, b) of the sum over axis 0 of a 512 x 32 x 32 array. -/
theorem rowsum_apply (m : FVec Ideal S512x32x32 .f32)
    (hacc : (0x00000000#32 : BitVec 32) = 0x00000000#32) (a b : Fin 32) :
    multiReduction .add [0] S32x32 m 0x00000000#32 Gen.reduces_S512x32x32_S32x32 (.inl rfl) hacc (ix2 a b)
      = ∑ r : Fin 512, m (ix3 r a b) := by
  refine (Ideal.multiReduction_add_single m 0x00000000#32 Gen.reduces_S512x32x32_S32x32 (.inl rfl) hacc (ix2 a b)).trans ?_
  refine Finset.sum_congr rfl fun r _ => congrArg m (funext fun d => Fin.ext ?_)
  match d with
  | ⟨0, _⟩ => rfl
  | ⟨1, _⟩ => rfl
  | ⟨2, _⟩ => rfl

/-! ### The pointwise chains at an element -/

/-- The quantisation chain x / 255 * 31, rounded to even, as a 32-bit integer, applied to a block: at (r, l) it is
    the bin word of the block's element there. -/
theorem bin_apply (x : Vec Ideal S512x128 .f32) (r : Fin 512) (l : Fin 128) :
    (fptosi 32 (roundeven (mulf
        (divf (shapeCast S512x128 x Gen.shapeCasts_S512x128_S512x128 : FVec Ideal S512x128 .f32)
          (broadcast S512x128 (Scalar.ofBits .f32 0x437F0000#32)))
        (broadcast S512x128 (Scalar.ofBits .f32 0x41F80000#32)))) : IVec S512x128 32) (ix2 r l)
      = binW (x (ix2 r l)) := by
  rw [shapeCast_self]
  rfl

/-- The one-hot array of an array w of bin words: at (r, a, l) it is 1 when w (r, l) is the bin number a, else 0.
    The narrowing of the 0 / 1 entries to the shorter float format changes nothing. -/
theorem hot_apply (w : IVec S512x128 32) (r : Fin 512) (a : Fin 32) (l : Fin 128) :
    (truncf .bf16 (sitofp .f32 (extui 32 (cmpi .eq
        (broadcastTo S512x32x128 (shapeCast S512x1x128 w Gen.shapeCasts_S512x128_S512x1x128)
          Gen.broadcasts_S512x1x128_S512x32x128)
        (broadcastTo S512x32x128
          (shapeCast S1x32x1 (shapeCast S32 (iota .tc S1x32 32 [1] Gen.iota_S1x32_d1_w32) Gen.shapeCasts_S1x32_S32)
            Gen.shapeCasts_S32_S1x32x1)
          Gen.broadcasts_S1x32x1_S512x32x128))
        Gen.natLt_1_32) : FVec Ideal S512x32x128 .f32) Gen.bitsLt_bf16_f32 : FVec Ideal S512x32x128 .bf16) (ix3 r a l)
      = ind (w (ix2 r l) = BitVec.ofNat 32 a.val) := by
  refine Eq.trans ?_ (onehot_eq (w (ix2 r l)) (BitVec.ofNat 32 a.val))
  exact congrArg₂ (fun u v : BitVec 32 => ((((IntOp.cmpi .eq u v).setWidth 32).toInt : ℝ) : EReal))
    (rows_apply w r a l) (bins_apply r a l)

/-- The accumulating store's value: the old histogram plus the point's counts. -/
theorem pay3_apply (x0 x1 : Vec Ideal S512x128 .f32) (acc : Vec Ideal S32x32 .f32) (a b : Fin 32) :
    Gen.k0_pay3 (F := Ideal) x0 x1 acc (ix2 a b) = acc (ix2 a b) + tile x0 x1 a b := by
  unfold Gen.k0_pay3
  refine (addf_apply _ _ _).trans ?_
  refine congrArg (acc (ix2 a b) + ·) ?_
  refine (rowsum_apply _ rfl a b).trans ?_
  unfold tile
  refine Finset.sum_congr rfl fun r _ => ?_
  refine (mm_apply _ _ r a b).trans ?_
  refine Finset.sum_congr rfl fun l _ => ?_
  rw [hot_apply, hot_apply, bin_apply, bin_apply, ind_mul]

/-- The resetting store's value: zero everywhere. -/
theorem pay2_apply (j : S32x32.Idx) : Gen.k0_pay2 (F := Ideal) j = 0 := by
  unfold Gen.k0_pay2
  rw [shapeCast_self]
  exact Ideal.ofBits_zero_f32

/-- The final cast of the accumulated value changes nothing. -/
theorem pay1_eq (v : FVec Ideal S32x32 .f32) : Gen.k0_pay1 (F := Ideal) v = v := by
  unfold Gen.k0_pay1
  exact shapeCast_self _ _

end Cert.KernelIdeal.KTile

end
-- ==== Proof.KAcc.lean ====
/-
  The histogram the kernel's run leaves.

  The scratch accumulator is reset at the first grid point and every point adds its counts, so after point n it
  holds the sum of the counts of points 0 .. n; the last point copies it to the output block, which is the whole
  output array and is written back at that point only.  Hence cell (a, b) of the output array after the run is the
  sum over all grid points of the point's count for that cell.
-/
import proofs.«140801_j87789131530707_1_alg».proof.Proof.Gen.KernelIdeal.Frame
import proofs.«140801_j87789131530707_1_alg».proof.Proof.KNames
import proofs.«140801_j87789131530707_1_alg».proof.Proof.KTile
import Idealize.ShloMosaic.Lib.Pipeline.Value
import Idealize.ShloMosaic.Lib.ValueIdx
import Idealize.ShloMosaic.Lib.Tactic

noncomputable section

open scoped BigOperators

namespace Cert.KernelIdeal.KAcc

open Idealize.ShloMosaic Idealize.ShloMosaic.ValueIdx Idealize.SL.Sem Cert.KernelIdeal Cert.Hist
open Idealize.ShloMosaic.Tactic
open Cert.KernelIdeal.KTile Cert.KernelIdeal.KNames

/-! ## What each case of the body leaves, as values -/

/-- The offsets of every store and load of the body are zero on both axes. -/
theorem hz : (![0, 0] : Fin 2 → Nat) = fun _ => 0 := funext fun a => by fin_cases a <;> rfl

/-- Case A: the reset store, then the accumulating store of what is read back, leave the point's counts over zero. -/
theorem sA {F : FTy → Type} [FloatOps F] (c : Dev nD) (i : grid0.Coords)
    (a1 : Memref sig .tc .vmem S512x128 .f32) (h1 : a1.IsWhole) (a2 : Memref sig .tc .vmem S512x128 .f32) (h2 : a2.IsWhole)
    (a3 : Memref sig .tc .vmem S32x32 .f32) (h3 : a3.IsWhole) (a4 : Memref sig .tc .vmem S32x32 .f32) (h4 : a4.IsWhole)
    (hc0 : Gen.cond0_0 i) (hc1 : ¬Gen.cond0_1 i) (x0 x1 : Vec F S512x128 .f32) :
    Gen.sout0_A_0 c i a1 h1 a2 h2 a3 h3 a4 h4 hc0 hc1 x0 x1 = Gen.k0_pay1 (Gen.k0_pay3 x0 x1 Gen.k0_pay2) := by
  unfold Gen.sout0_A_0
  rw [View.read_writes_eq_canon _ _ _ (Gen.scover0_A_0 c i a1 h1 a2 h2 a3 h3 a4 h4 hc0 hc1 x0 x1)]
  unfold Gen.kernelRun0_A
  dsimp only
  sl_unfold_words
  rw [View.canon_cons_unit_zero (S := S32x32) hz, View.readCov_unit_zero (S := S32x32) _ hz]
  simp only [View.readAt_eq_ld, h1.read_unread, h2.read_unread, View.ld_unit_zero (S := S512x128) hz]

/-- Case B: the accumulating store leaves the old contents plus the point's counts. -/
theorem sB {F : FTy → Type} [FloatOps F] (c : Dev nD) (i : grid0.Coords)
    (a1 : Memref sig .tc .vmem S512x128 .f32) (h1 : a1.IsWhole) (a2 : Memref sig .tc .vmem S512x128 .f32) (h2 : a2.IsWhole)
    (a3 : Memref sig .tc .vmem S32x32 .f32) (h3 : a3.IsWhole) (a4 : Memref sig .tc .vmem S32x32 .f32) (h4 : a4.IsWhole)
    (hc0 : ¬Gen.cond0_0 i) (hc1 : ¬Gen.cond0_1 i) (x0 x1 : Vec F S512x128 .f32) (xs0 : Vec F S32x32 .f32) :
    Gen.sout0_B_0 c i a1 h1 a2 h2 a3 h3 a4 h4 hc0 hc1 x0 x1 xs0 = Gen.k0_pay1 (Gen.k0_pay3 x0 x1 xs0) := by
  unfold Gen.sout0_B_0
  rw [View.read_writes_eq_canon _ _ _ (Gen.scover0_B_0 c i a1 h1 a2 h2 a3 h3 a4 h4 hc0 hc1 x0 x1 xs0)]
  unfold Gen.kernelRun0_B
  dsimp only
  sl_unfold_words
  rw [View.canon_unit_zero (S := S32x32) hz]
  simp only [View.readAt_eq_ld, h1.read_unread, h2.read_unread, h4.read_unread, View.ld_unit_zero (S := S512x128) hz,
    View.ld_unit_zero (S := S32x32) hz]

/-- Case C, the scratch: as in case B. -/
theorem sC {F : FTy → Type} [FloatOps F] (c : Dev nD) (i : grid0.Coords)
    (a1 : Memref sig .tc .vmem S512x128 .f32) (h1 : a1.IsWhole) (a2 : Memref sig .tc .vmem S512x128 .f32) (h2 : a2.IsWhole)
    (a3 : Memref sig .tc .vmem S32x32 .f32) (h3 : a3.IsWhole) (a4 : Memref sig .tc .vmem S32x32 .f32) (h4 : a4.IsWhole)
    (hc0 : ¬Gen.cond0_0 i) (hc1 : Gen.cond0_1 i) (x0 x1 : Vec F S512x128 .f32) (xs0 : Vec F S32x32 .f32) :
    Gen.sout0_C_0 c i a1 h1 a2 h2 a3 h3 a4 h4 hc0 hc1 x0 x1 xs0 = Gen.k0_pay1 (Gen.k0_pay3 x0 x1 xs0) := by
  unfold Gen.sout0_C_0
  rw [View.read_writes_eq_canon _ _ _ (Gen.scover0_C_0 c i a1 h1 a2 h2 a3 h3 a4 h4 hc0 hc1 x0 x1 xs0)]
  unfold Gen.kernelRun0_C
  dsimp only
  sl_unfold_words
  rw [View.canon_unit_zero (S := S32x32) hz]
  simp only [View.readAt_eq_ld, h1.read_unread, h2.read_unread, h4.read_unread, View.ld_unit_zero (S := S512x128) hz,
    View.ld_unit_zero (S := S32x32) hz]

/-- Case C, the output block: the scratch just stored is read back and copied to it. -/
theorem oC {F : FTy → Type} [FloatOps F] (c : Dev nD) (i : grid0.Coords)
    (a1 : Memref sig .tc .vmem S512x128 .f32) (h1 : a1.IsWhole) (a2 : Memref sig .tc .vmem S512x128 .f32) (h2 : a2.IsWhole)
    (a3 : Memref sig .tc .vmem S32x32 .f32) (h3 : a3.IsWhole) (a4 : Memref sig .tc .vmem S32x32 .f32) (h4 : a4.IsWhole)
    (hc0 : ¬Gen.cond0_0 i) (hc1 : Gen.cond0_1 i) (x0 x1 : Vec F S512x128 .f32) (xs0 : Vec F S32x32 .f32) :
    Gen.out0_C_2 c i a1 h1 a2 h2 a3 h3 a4 h4 hc0 hc1 x0 x1 xs0 = Gen.k0_pay1 (Gen.k0_pay3 x0 x1 xs0) := by
  unfold Gen.out0_C_2
  rw [View.read_writes_eq_canon _ _ _ (Gen.cover0_C_2 c i a1 h1 a2 h2 a3 h3 a4 h4 hc0 hc1 x0 x1 xs0)]
  unfold Gen.kernelRun0_C
  dsimp only
  sl_unfold_words
  rw [View.canon_unit_zero (S := S32x32) hz]
  simp only [View.readAt_eq_ld, h1.read_unread, h2.read_unread, h4.read_unread, View.ld_unit_zero (S := S512x128) hz,
    View.ld_unit_zero (S := S32x32) hz, View.readCov_unit_zero (S := S32x32) _ hz]

/-! ## Sums over the points up to a given one -/

/-- Only point 0 is at most 0. -/
theorem sum_le_zero {N : ℕ} (f : Fin N → EReal) (h0 : 0 < N) :
    (∑ t : Fin N, if t.val ≤ 0 then f t else 0) = f ⟨0, h0⟩ := by
  have e : ∀ t : Fin N, (if t.val ≤ 0 then f t else 0) = (if t = ⟨0, h0⟩ then f t else 0) := by
    intro t
    by_cases h : t.val = 0
    · rw [if_pos (by omega), if_pos (Fin.ext h)]
    · rw [if_neg (by omega), if_neg (fun e => h (congrArg Fin.val e))]
  rw [Finset.sum_congr rfl (fun t _ => e t), Finset.sum_ite_eq' Finset.univ ⟨0, h0⟩ f]
  simp

/-- The points up to n + 1 are those up to n and the point n + 1. -/
theorem sum_le_succ {N : ℕ} (f : Fin N → EReal) (n : ℕ) (hn : n + 1 < N) :
    (∑ t : Fin N, if t.val ≤ n + 1 then f t else 0) = (∑ t : Fin N, if t.val ≤ n then f t else 0) + f ⟨n + 1, hn⟩ := by
  have e : ∀ t : Fin N, (if t.val ≤ n + 1 then f t else 0)
      = (if t.val ≤ n then f t else 0) + (if t = ⟨n + 1, hn⟩ then f t else 0) := by
    intro t
    by_cases h1 : t.val ≤ n
    · have hne : t ≠ ⟨n + 1, hn⟩ := fun e => by have := congrArg Fin.val e; dsimp only at this; omega
      rw [if_pos (by omega), if_pos h1, if_neg hne, add_zero]
    · by_cases h2 : t.val = n + 1
      · rw [if_pos (by omega), if_neg h1, if_pos (Fin.ext h2), zero_add]
      · rw [if_neg (by omega), if_neg h1, if_neg (fun e => h2 (congrArg Fin.val e)), add_zero]
  rw [Finset.sum_congr rfl (fun t _ => e t), Finset.sum_add_distrib, Finset.sum_ite_eq' Finset.univ ⟨n + 1, hn⟩ f]
  simp

/-- Every point is at most the last one. -/
theorem sum_le_all {N : ℕ} (f : Fin N → EReal) (n : ℕ) (h : N ≤ n + 1) :
    (∑ t : Fin N, if t.val ≤ n then f t else 0) = ∑ t, f t :=
  Finset.sum_congr rfl fun t _ => if_pos (by have := t.isLt; omega)

/-! ## The accumulator after each point -/

variable (m : (ℓ : Loc nD τ sig) → Buf (Elt Ideal) ℓ)

/-- After point n, cell (a, b) of the scratch accumulator is the sum of the counts of the points 0 .. n:
    the first point resets it and adds its counts, every later point adds its own. -/
theorem acc_inv (c : Dev nD) (a b : Fin 32) : ∀ (n : ℕ) (hn : n < cfg0.N),
    (Gen.outsAt0 m c n hn).2 (ix2 a b)
      = ∑ t : Fin cfg0.N, if t.val ≤ n then tile (xblk m c t) (yblk m c t) a b else 0
  | 0, hn => by
    have h0 : (⟨0, hn⟩ : Fin cfg0.N).val % 512 = 0 := rfl
    have h1 : ¬(⟨0, hn⟩ : Fin cfg0.N).val % 512 = 511 := by dsimp only; omega
    rw [Gen.outsAt0_A m c ⟨0, hn⟩ h0 h1]
    dsimp only
    refine (congrFun (sA (F := Ideal) c (grid0.coords ⟨0, hn⟩) (Gen.ms0_0 ⟨0, hn⟩) (Gen.hs0_0 ⟨0, hn⟩)
      (Gen.ms0_1 ⟨0, hn⟩) (Gen.hs0_1 ⟨0, hn⟩) (Gen.ms0_2 ⟨0, hn⟩) (Gen.hs0_2 ⟨0, hn⟩) Gen.scM0_0
      (Memref.isWhole_whole _) ((Gen.hcond0_0 ⟨0, hn⟩).mpr h0) (fun h => h1 ((Gen.hcond0_1 ⟨0, hn⟩).mp h))
      (xblk m c ⟨0, hn⟩) (yblk m c ⟨0, hn⟩)) (ix2 a b)).trans ?_
    refine (congrFun (pay1_eq (Gen.k0_pay3 (F := Ideal) (xblk m c ⟨0, hn⟩) (yblk m c ⟨0, hn⟩) (Gen.k0_pay2 (F := Ideal)))) (ix2 a b)).trans ?_
    refine (pay3_apply (xblk m c ⟨0, hn⟩) (yblk m c ⟨0, hn⟩) (Gen.k0_pay2 (F := Ideal)) a b).trans ?_
    rw [pay2_apply (ix2 a b), zero_add]
    exact (sum_le_zero (fun t => tile (xblk m c t) (yblk m c t) a b) hn).symm
  | n + 1, hn => by
    have hN : n + 1 < 512 := lt_of_lt_of_eq hn Gen.N_0
    have ih := acc_inv c a b n (Nat.lt_of_succ_lt hn)
    have h0 : ¬(⟨n + 1, hn⟩ : Fin cfg0.N).val % 512 = 0 := by dsimp only; omega
    by_cases h1 : (⟨n + 1, hn⟩ : Fin cfg0.N).val % 512 = 511
    · rw [Gen.outsAt0_C m c ⟨n + 1, hn⟩ h0 h1]
      dsimp only
      refine (congrFun (sC (F := Ideal) c (grid0.coords ⟨n + 1, hn⟩) (Gen.ms0_0 ⟨n + 1, hn⟩) (Gen.hs0_0 ⟨n + 1, hn⟩)
        (Gen.ms0_1 ⟨n + 1, hn⟩) (Gen.hs0_1 ⟨n + 1, hn⟩) (Gen.ms0_2 ⟨n + 1, hn⟩) (Gen.hs0_2 ⟨n + 1, hn⟩) Gen.scM0_0
        (Memref.isWhole_whole _) (fun h => h0 ((Gen.hcond0_0 ⟨n + 1, hn⟩).mp h)) ((Gen.hcond0_1 ⟨n + 1, hn⟩).mpr h1)
        (xblk m c ⟨n + 1, hn⟩) (yblk m c ⟨n + 1, hn⟩) (Gen.outsAt0 m c n (Nat.lt_of_succ_lt hn)).2) (ix2 a b)).trans ?_
      refine (congrFun (pay1_eq (Gen.k0_pay3 (F := Ideal) (xblk m c ⟨n + 1, hn⟩) (yblk m c ⟨n + 1, hn⟩) (Gen.outsAt0 m c n (Nat.lt_of_succ_lt hn)).2)) (ix2 a b)).trans ?_
      refine (pay3_apply (xblk m c ⟨n + 1, hn⟩) (yblk m c ⟨n + 1, hn⟩) (Gen.outsAt0 m c n (Nat.lt_of_succ_lt hn)).2 a b).trans ?_
      refine Eq.trans ?_ (sum_le_succ (fun t => tile (xblk m c t) (yblk m c t) a b) n hn).symm
      exact congrArg (· + tile (xblk m c ⟨n + 1, hn⟩) (yblk m c ⟨n + 1, hn⟩) a b) ih
    · rw [Gen.outsAt0_B m c ⟨n + 1, hn⟩ h0 h1]
      dsimp only
      refine (congrFun (sB (F := Ideal) c (grid0.coords ⟨n + 1, hn⟩) (Gen.ms0_0 ⟨n + 1, hn⟩) (Gen.hs0_0 ⟨n + 1, hn⟩)
        (Gen.ms0_1 ⟨n + 1, hn⟩) (Gen.hs0_1 ⟨n + 1, hn⟩) (Gen.ms0_2 ⟨n + 1, hn⟩) (Gen.hs0_2 ⟨n + 1, hn⟩) Gen.scM0_0
        (Memref.isWhole_whole _) (fun h => h0 ((Gen.hcond0_0 ⟨n + 1, hn⟩).mp h)) (fun h => h1 ((Gen.hcond0_1 ⟨n + 1, hn⟩).mp h))
        (xblk m c ⟨n + 1, hn⟩) (yblk m c ⟨n + 1, hn⟩) (Gen.outsAt0 m c n (Nat.lt_of_succ_lt hn)).2) (ix2 a b)).trans ?_
      refine (congrFun (pay1_eq (Gen.k0_pay3 (F := Ideal) (xblk m c ⟨n + 1, hn⟩) (yblk m c ⟨n + 1, hn⟩) (Gen.outsAt0 m c n (Nat.lt_of_succ_lt hn)).2)) (ix2 a b)).trans ?_
      refine (pay3_apply (xblk m c ⟨n + 1, hn⟩) (yblk m c ⟨n + 1, hn⟩) (Gen.outsAt0 m c n (Nat.lt_of_succ_lt hn)).2 a b).trans ?_
      refine Eq.trans ?_ (sum_le_succ (fun t => tile (xblk m c t) (yblk m c t) a b) n hn).symm
      exact congrArg (· + tile (xblk m c ⟨n + 1, hn⟩) (yblk m c ⟨n + 1, hn⟩) a b) ih

/-! ## The output array -/

/-- The grid has a point 511, its last. -/
theorem last_lt : 511 < cfg0.N := lt_of_lt_of_eq (by decide) Gen.N_0.symm

/-- At the last point the output block is a copy of the accumulator. -/
theorem out_eq_acc (c : Dev nD) (t : Fin cfg0.N) (h0 : ¬t.val % 512 = 0) (h1 : t.val % 512 = 511) :
    (Gen.outsAt0 m c t.val t.isLt).1 = (Gen.outsAt0 m c t.val t.isLt).2 := by
  rw [Gen.outsAt0_C m c t h0 h1]
  dsimp only
  exact (oC (F := Ideal) c (grid0.coords t) (Gen.ms0_0 t) (Gen.hs0_0 t) (Gen.ms0_1 t) (Gen.hs0_1 t) (Gen.ms0_2 t) (Gen.hs0_2 t)
      Gen.scM0_0 (Memref.isWhole_whole _) (fun h => h0 ((Gen.hcond0_0 t).mp h)) ((Gen.hcond0_1 t).mpr h1)
      (xblk m c t) (yblk m c t) (Gen.outsAt0 m c (t.val - 1) (Nat.lt_of_le_of_lt (Nat.sub_le _ _) t.isLt)).2).trans
    (sC (F := Ideal) c (grid0.coords t) (Gen.ms0_0 t) (Gen.hs0_0 t) (Gen.ms0_1 t) (Gen.hs0_1 t) (Gen.ms0_2 t) (Gen.hs0_2 t)
      Gen.scM0_0 (Memref.isWhole_whole _) (fun h => h0 ((Gen.hcond0_0 t).mp h)) ((Gen.hcond0_1 t).mpr h1)
      (xblk m c t) (yblk m c t) (Gen.outsAt0 m c (t.val - 1) (Nat.lt_of_le_of_lt (Nat.sub_le _ _) t.isLt)).2).symm

/-- The output window's block index is (0, 0) at every point: its block is the whole array. -/
theorem idx2_zero : ∀ (t : Fin cfg0.N) (a : Fin 2), win0_2.index t a = 0 :=
  (by decide +kernel : ∀ (t : Fin grid0.N) (a : Fin 2), win0_2.index t a = 0)

/-- A block written back is read, through the window's zero offsets, as the whole array. -/
theorem cut_read (t : Fin cfg0.N) (X : Vec Ideal S32x32 .f32) :
    (cfg0.win 2).cut (grid0.coords t) X = ((cfg0.win 2).blk t).view.read (Elt Ideal) X := by
  have hz' : (fun a => win0_2.index t a * main_v2.ty.shape.size a) = fun _ => 0 :=
    funext fun a => by rw [idx2_zero t a, Nat.zero_mul]
  exact (Memref.read_access_unit_zero (Elt Ideal) main_v2 hz' (fun a => by rw [congrFun hz' a]; simp) X).symm

/-- What a point writes back, if it does, is what it left in the output block. -/
theorem flushed_at (c : Dev nD) (t : Fin cfg0.N) :
    (Gen.dats m 0 c).flushed 2 t = ((cfg0.win 2).blk t).view.read (Elt Ideal) (Gen.outsAt0 m c t.val t.isLt).1 := by
  show (cfg0.win 2).cut (grid0.coords t) ((Gen.dats m 0 c).after 2 t) = _
  rw [Gen.after0_2]
  exact cut_read t _

/-- Every cell of the array lies in the output window's block, at every point. -/
theorem mem_blk (t : Fin cfg0.N) (i : S32x32.Idx) : i ∈ ((cfg0.win 2).blk t).view.set := by
  show i ∈ ((View.whole main_v2).slice (win0_2.rect t)).set
  rw [View.set_slice_whole, Rect.mem_set_unit]
  intro a
  have h0 : (i 0 : Nat) < 32 := (i 0).isLt
  have h1 : (i 1 : Nat) < 32 := (i 1).isLt
  match a with
  | ⟨0, _⟩ =>
    show win0_2.index t 0 * 32 ≤ (i 0 : Nat) ∧ (i 0 : Nat) < win0_2.index t 0 * 32 + 32
    rw [idx2_zero t 0]; omega
  | ⟨1, _⟩ =>
    show win0_2.index t 1 * 32 ≤ (i 1 : Nat) ∧ (i 1 : Nat) < win0_2.index t 1 * 32 + 32
    rw [idx2_zero t 1]; omega

/-- After the run, cell (a, b) of the output array is the sum over the grid points of what each point counts there. -/
theorem outArr_apply (c : Dev nD) (a b : Fin 32) :
    outArr m c (ix2 a b) = ∑ t : Fin cfg0.N, tile (xblk m c t) (yblk m c t) a b := by
  -- the last point, kept as a name: it is the only point that writes the block back
  obtain ⟨t₀, ht₀⟩ : ∃ t₀ : Fin cfg0.N, t₀.val = 511 := ⟨⟨511, last_lt⟩, rfl⟩
  have hN : cfg0.N = 512 := Gen.N_0
  have h0 : ¬t₀.val % 512 = 0 := by omega
  have h1 : t₀.val % 512 = 511 := by omega
  have hfin : outArr m c = (Gen.outsAt0 m c t₀.val t₀.isLt).1 :=
    (Gen.dats m 0 c).arrAt_eq_of_cover 2 (Gen.outsAt0 m c t₀.val t₀.isLt).1
      (fun t hf => by
        have h511 : t.val % 512 = 511 := (Gen.flush0_2 t).mp hf
        have hlt : t.val < 512 := lt_of_lt_of_eq t.isLt hN
        have e : t = t₀ := Fin.ext (by omega)
        subst e
        exact flushed_at m c t)
      (fun i => ⟨t₀, (Gen.flush0_2 t₀).mpr h1, mem_blk t₀ i⟩)
  refine (congrFun hfin (ix2 a b)).trans ?_
  refine (congrFun (out_eq_acc m c t₀ h0 h1) (ix2 a b)).trans ?_
  exact (acc_inv m c a b t₀.val t₀.isLt).trans
    (sum_le_all (fun t => tile (xblk m c t) (yblk m c t) a b) t₀.val (by omega))

end Cert.KernelIdeal.KAcc

end
-- ==== Proof.KBlocks.lean ====
/-
  The grid points' counts, summed, count the whole input.

  Grid point t reads rows 512 t .. 512 t + 511 of the 262144 x 128 arrays, which are the two arguments (of shape
  2 x 256 x 256 x 256) reshaped in row-major order.  So (t, r, l) runs once through all elements of an argument —
  element number (512 t + r) * 128 + l in row-major order — and the sum over the grid points of the points' counts
  for cell (a, b) is the count of that cell over all elements of the two arguments.
-/
import proofs.«140801_j87789131530707_1_alg».proof.Proof.Gen.KernelIdeal.Frame
import proofs.«140801_j87789131530707_1_alg».proof.Proof.KNames
import proofs.«140801_j87789131530707_1_alg».proof.Proof.KTile
import Idealize.ShloMosaic.Lib.Pipeline.Value
import Idealize.ShloMosaic.Lib.ValueIdx
import Idealize.ShloMosaic.Lib.StableHlo.Run

noncomputable section

open scoped BigOperators

namespace Cert.KernelIdeal.KBlocks

open Idealize.ShloMosaic Idealize.ShloMosaic.ValueIdx Idealize.SL.Sem Cert.KernelIdeal Cert.Hist
open Cert.KernelIdeal.KTile Cert.KernelIdeal.KNames

variable (m : (ℓ : Loc nD τ sig) → Buf (Elt Ideal) ℓ)

/-- The two input windows' block indices at grid point t: block t along the rows, block 0 along the lanes. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Element (r, l) of the first input's block at point t is element (512 t + r, l) of the array: on each axis a
    block's coordinate in the array is the block index times the block's extent plus the coordinate inside the block. -/
theorem xblk_apply (c : Dev nD) (t : Fin cfg0.N) (r : Fin 512) (l : Fin 128) (h : 512 * t.val + r.val < 262144) :
    xblk m c t (ix2 r l) = xarr m c (ix2 ⟨512 * t.val + r.val, h⟩ l) := by
  obtain ⟨e0, e1, -, -⟩ := idx_facts t
  show Gen.V m c main_v0 (((cfg0.win 0).blk t).view.emb (ix2 r l)) = Gen.V m c main_v0 _
  refine congrArg _ ?_
  funext a; apply Fin.ext
  match a with
  | ⟨0, _⟩ => show win0_0.index t (0 : Fin 2) * 512 + 1 * r.val = 512 * t.val + r.val; omega
  | ⟨1, _⟩ => show win0_0.index t (1 : Fin 2) * 128 + 1 * l.val = l.val; omega

/-- The same for the second input. -/
theorem yblk_apply (c : Dev nD) (t : Fin cfg0.N) (r : Fin 512) (l : Fin 128) (h : 512 * t.val + r.val < 262144) :
    yblk m c t (ix2 r l) = yarr m c (ix2 ⟨512 * t.val + r.val, h⟩ l) := by
  obtain ⟨-, -, e2, e3⟩ := idx_facts t
  show Gen.V m c main_v1 (((cfg0.win 1).blk t).view.emb (ix2 r l)) = Gen.V m c main_v1 _
  refine congrArg _ ?_
  funext a; apply Fin.ext
  match a with
  | ⟨0, _⟩ => show win0_1.index t (0 : Fin 2) * 512 + 1 * r.val = 512 * t.val + r.val; omega
  | ⟨1, _⟩ => show win0_1.index t (1 : Fin 2) * 128 + 1 * l.val = l.val; omega

/-- The first array as the region finds it is the first argument reshaped. -/
theorem xarr_eq (c : Dev nD) :
    (xarr m c : S262144x128.Idx → EReal) = shapeCast S262144x128 (xarg m c) Gen.shapeCasts_S2x256x256x256_S262144x128 := by
  show StableHlo.after Gen.hostOps0 (fun b => m (c, b)) (Proc.devRef .tc main_v0) = _
  after_results
  rfl

/-- The second array as the region finds it is the second argument reshaped. -/
theorem yarr_eq (c : Dev nD) :
    (yarr m c : S262144x128.Idx → EReal) = shapeCast S262144x128 (yarg m c) Gen.shapeCasts_S2x256x256x256_S262144x128 := by
  show StableHlo.after Gen.hostOps0 (fun b => m (c, b)) (Proc.devRef .tc main_v1) = _
  after_results
  rfl

/-- Counting over the reshaped arrays is counting over the arguments: a reshape reads the argument through the
    bijection of the two index sets that matches row-major positions, and a count does not depend on the enumeration. -/
theorem count_arr (c : Dev nD) (a b : Fin 32) :
    count (xarr m c) (yarr m c) a b = count (xarg m c) (yarg m c) a b := by
  rw [xarr_eq m c, yarr_eq m c]
  exact count_equiv (Shape.reshapeEquiv Gen.shapeCasts_S2x256x256x256_S262144x128) (xarg m c) (yarg m c) a b

/-- (t, r, l) ↦ row 512 t + r, lane l of the 262144 x 128 array, for t, r < 512 and l < 128: every element exactly
    once (t and r are the quotient and the remainder of the row by 512). -/
def rowEquiv : Fin 512 × Fin 512 × Fin 128 ≃ S262144x128.Idx where
  toFun p := ix2 ⟨512 * p.1.val + p.2.1.val, by have := p.1.isLt; have := p.2.1.isLt; omega⟩ p.2.2
  invFun i := (⟨(i 0).val / 512, by have := idx2_lt0 i; omega⟩, ⟨(i 0).val % 512, by omega⟩, i 1)
  left_inv p := by
    obtain ⟨t, r, l⟩ := p
    have ht := t.isLt
    have hr := r.isLt
    refine Prod.ext (Fin.ext ?_) (Prod.ext (Fin.ext ?_) rfl)
    · show (512 * t.val + r.val) / 512 = t.val
      omega
    · show (512 * t.val + r.val) % 512 = r.val
      omega
  right_inv i := by
    funext a
    match a with
    | ⟨0, _⟩ => apply Fin.ext; show 512 * ((i 0).val / 512) + (i 0).val % 512 = (i 0).val; omega
    | ⟨1, _⟩ => rfl

/-- An indicator of two bin words depends on the two intensities only. -/
theorem ind_congr {u v u' v' : EReal} (hu : u = u') (hv : v = v') (A B : BitVec 32) :
    ind (binW u = A ∧ binW v = B) = ind (binW u' = A ∧ binW v' = B) := by
  subst hu; subst hv; rfl

/-- Summing over t, r, l a function of element (512 t + r, l) is summing it over all elements of the array. -/
theorem sum_rows (F : S262144x128.Idx → EReal) :
    ∑ t : Fin 512, ∑ r : Fin 512, ∑ l : Fin 128, F (rowEquiv (t, r, l)) = ∑ e, F e := by
  rw [← Equiv.sum_comp rowEquiv F, Fintype.sum_prod_type]
  refine Finset.sum_congr rfl fun t _ => ?_
  rw [Fintype.sum_prod_type]

/-- The number of elements in rows 512 t .. 512 t + 511 of the two arrays that fall in cell (a, b). -/
def rowsCount (c : Dev nD) (a b : Fin 32) (t : Fin 512) : EReal :=
  ∑ r : Fin 512, ∑ l : Fin 128,
    ind (binW (xarr m c (rowEquiv (t, r, l))) = BitVec.ofNat 32 a.val
      ∧ binW (yarr m c (rowEquiv (t, r, l))) = BitVec.ofNat 32 b.val)

/-- A point's count is the count of the 512 rows of the arrays it reads. -/
theorem tile_point (c : Dev nD) (a b : Fin 32) (t : Fin cfg0.N) (ht : t.val < 512) :
    tile (xblk m c t) (yblk m c t) a b = rowsCount m c a b ⟨t.val, ht⟩ := by
  unfold tile rowsCount
  refine Finset.sum_congr rfl fun r _ => Finset.sum_congr rfl fun l _ => ?_
  have h : 512 * t.val + r.val < 262144 := by have := r.isLt; omega
  exact ind_congr (xblk_apply m c t r l h) (yblk_apply m c t r l h) _ _

/-- The grid has 512 points. -/
theorem grid_card : cfg0.N = 512 := Gen.N_0

/-- The counts of the 512 stretches of rows add up to the count over the whole arrays. -/
theorem sum_rowsCount (c : Dev nD) (a b : Fin 32) :
    ∑ t : Fin 512, rowsCount m c a b t = count (xarr m c) (yarr m c) a b := by
  unfold rowsCount Cert.Hist.count
  exact sum_rows fun e =>
    ind (binW (xarr m c e) = BitVec.ofNat 32 a.val ∧ binW (yarr m c e) = BitVec.ofNat 32 b.val)

/-- The points' counts for cell (a, b), summed over the grid, are the count of that cell over the two arguments. -/
theorem tiles_eq_count (c : Dev nD) (a b : Fin 32) :
    ∑ t : Fin cfg0.N, tile (xblk m c t) (yblk m c t) a b = count (xarg m c) (yarg m c) a b := by
  have hN : ∀ t : Fin cfg0.N, t.val < 512 := fun t => lt_of_lt_of_eq t.isLt grid_card
  calc ∑ t : Fin cfg0.N, tile (xblk m c t) (yblk m c t) a b
      = ∑ t : Fin cfg0.N, rowsCount m c a b (finCongr grid_card t) :=
        Finset.sum_congr rfl fun t _ => tile_point m c a b t (hN t)
    _ = ∑ t : Fin 512, rowsCount m c a b t := Equiv.sum_comp (finCongr grid_card) (rowsCount m c a b)
    _ = count (xarr m c) (yarr m c) a b := sum_rowsCount m c a b
    _ = count (xarg m c) (yarg m c) a b := count_arr m c a b

end Cert.KernelIdeal.KBlocks

end
-- ==== Proof.KRun.lean ====
/-
  The kernel program's run, with its result named: the operations after the region applied to the histogram array
  the region leaves, the two arguments unchanged.
-/
import proofs.«140801_j87789131530707_1_alg».proof.Proof.Gen.KernelIdeal.Frame
import proofs.«140801_j87789131530707_1_alg».proof.Proof.KNames
import proofs.«140801_j87789131530707_1_alg».proof.Proof.Tail
import Idealize.ShloMosaic.Lib.Pipeline.Value
import Idealize.ShloMosaic.Lib.StableHlo.Run

noncomputable section

namespace Cert.KernelIdeal.KRun

open Idealize.ShloMosaic Idealize.ShloMosaic.TcCoe Idealize.SL.Sem Cert.KernelIdeal
open Cert.KernelIdeal.KNames

variable (m : (ℓ : Loc nD τ sig) → Buf (Elt Ideal) ℓ) (ρ : Dev nD → PrngReg)

/-- Among the buffer contents the region leaves, the histogram buffer holds the third window's array as it stands
    after the last grid point: the windows' arrays are distinct buffers, so reading the third one back gives it. -/
theorem arr_out (c : Dev nD) :
    Pipeline.withArrays (cfgs 0).spec c (Gen.V0 m c) (fun w => (Gen.dats m 0 c).arrAt w (cfgs 0).N) (Proc.devRef .tc main_v2)
      = outArr m c :=
  Pipeline.withArrays_arr spec0 Gen.launch0.win.arr_inj c _ _ 2

/-- The result buffer after the operations that follow the region is the tail function of the histogram array.
    Each operation writes only its own result buffer, so folding them over the contents the region leaves composes
    their functions in order: total, normalisation, the two marginals, the three logarithms, the weighted sum and the
    logistic. That composition is the tail function term for term; the shape relations agree as proofs of one proposition. -/
theorem tail_eq (c : Dev nD) :
    Pipeline.afterTail₀ cfgs (Gen.dats m) 0 (Gen.V0 m) [Gen.hostOps1] c main_v29 = Cert.Tail.tail rel (outArr m c) := by
  unfold Pipeline.afterTail₀
  show StableHlo.after Gen.hostOps1 _ (Proc.devRef .tc main_v29) = _
  after_results_simp
  rw [arr_out m c]
  unfold Cert.Tail.tail
  rfl

/-- Every weakly fair execution terminates with the result at the tail function of the histogram array, the arguments kept. -/
theorem run : θ_run (defs (F := Ideal)) (onTc (τ := τ) (main (F := Ideal))) ⟨m, fun _ => 0, ρ⟩ (fun r => ∀ c : Dev nD,
      r.2.mem ((c.tc : Thread nD τ).loc main_v29) = Cert.Tail.tail rel (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  -- The result and the two arguments are unscoped buffers that are no window's array: the run leaves each at what the
  -- operations after the region make of the contents the region leaves. The result is then the tail function; no
  -- operation before or after the region writes an argument.
  refine (θ_run defs _ _).mono (fun _ h c => ⟨?_, ?_, ?_⟩) (Gen.run_main (F := Ideal) m ρ)
  · exact ((h c).2 main_v29 (Pipeline.mem_restRefs_of main_v29 (by decide) (by decide))).trans (tail_eq m c)
  · exact ((h c).2 main_arg0 (Pipeline.mem_restRefs_of main_arg0 (by decide) (by decide))).trans
      (Gen.W_main_arg0 m (Gen.dats m) c)
  · exact ((h c).2 main_arg1 (Pipeline.mem_restRefs_of main_arg1 (by decide) (by decide))).trans
      (Gen.W_main_arg1 m (Gen.dats m) c)

end Cert.KernelIdeal.KRun

end
-- ==== Proof.LibGatherScatter.lean ====
/-
  How a gather and a float scatter-add read AT ONE INDEX, for four dimension-number records:
  a gather of table rows and a gather of vector entries by a column of start words, and the scatter-adds that send
  update rows, or update entries, back to the rows those words name.

  A gather reads its start word SIGNED and CLAMPS it into the table: a negative word reads row 0, a word past the end
  reads the last row. A scatter-add reads the word signed and does NOT clamp: an update whose word is outside the table
  is dropped, so operand entry i receives exactly the updates whose word, as an integer, equals i.

  Every statement is for an arbitrary record whose fields are given as hypotheses, so that it applies to any record
  with those fields, at arbitrary extents.
-/
import Idealize.ShloMosaic.PureOps.Ideal
import Idealize.ShloMosaic.Lib.ValueIdx
import Idealize.ShloMosaic.Lib.StableHlo.Predicate

noncomputable section

open scoped BigOperators

namespace Cert.LibGS

open Idealize.ShloMosaic Idealize.ShloMosaic.ValueIdx

/-- The shape of an array of N rows and C columns. -/
abbrev Sh (N C : Nat) : Shape := ⟨2, ![N, C]⟩

/-- An N × C array of extended reals. -/
abbrev RArr (N C : Nat) : Type := (Sh N C).Idx → EReal

/-- The table row a start word names: the word read signed, clamped into the N rows. -/
def rowOf (N : Nat) (hN : 0 < N) (w : BitVec 32) : Fin N := ⟨min w.toInt.toNat (N - 1), by omega⟩

/-! ## The row gather: one table row per start word -/

section GatherRows

variable {N n C : Nat} (d : GatherDims (Sh N C) (Sh n 1) (Sh n C))

/-- An index of the result read on an axis known to be the first gives the row coordinate. -/
theorem ix2_val_zero {a b : Nat} (e : Fin a) (c : Fin b) (X : Fin 2) (h : X = 0) : (ix2 e c X).val = e.val := by
  subst h; rfl

/-- An index of the result read on an axis known to be the second gives the column coordinate. -/
theorem ix2_val_one {a b : Nat} (e : Fin a) (c : Fin b) (X : Fin 2) (h : X = 1) : (ix2 e c X).val = c.val := by
  subst h; rfl

/-- When the second axis is the one offset axis, the result's batch axes are the first alone. -/
theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

/-- The start word a result entry (e, c) reads is the one in row e of the index column. -/
theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

/-- On the table's row axis the operand index is the start word, read signed and clamped into the table. -/
theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

/-- On the table's column axis the operand index is the result's column. -/
theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

/-- THE ROW GATHER AT ONE ENTRY: entry (e, c) of the result is column c of the table row that start word e names. -/
theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

/-! ## The vector gather: one entry per start word -/

/-- The rank-1 index at a coordinate, written in two ways. -/
theorem ix1_eq_ofFin {n : Nat} (e : Fin n) : ix1 e = Shape.Idx.ofFin e := by
  funext a
  match a with
  | ⟨0, _⟩ => exact Fin.ext rfl

/-- Row e of an index column, written in two ways. -/
theorem ixP_eq_ix2 {n : Nat} (e : Fin n) : StableHlo.Predicate.ixP e = ix2 e (0 : Fin 1) := by
  funext a
  match a with
  | ⟨0, _⟩ => rfl
  | ⟨1, _⟩ => rfl

/-- THE VECTOR GATHER AT ONE ENTRY: entry e of the result is the vector's entry that start word e names. -/
theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

/-! ## The row scatter-add -/

/-- An index read on two names of one axis gives one coordinate. -/
theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

/-- When the second axis is the one window axis, the updates' scatter axes are the first alone. -/
theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

/-- The start word an update entry j reads is the one in j's row of the index column. -/
theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the row axis is the start word read signed. -/
theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

/-- The window's start on the column axis is zero. -/
theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

/-- The window coordinate on the row axis, an inserted one, is zero. -/
theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

/-- The window coordinate on the column axis is the update's column. -/
theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

/-- WHERE AN UPDATE LANDS. Update entry j lands on operand entry t exactly when j's start word, read signed, is t's row
    and j's column is t's column. -/
theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

/-- THE ROW SCATTER-ADD AT ONE ENTRY: entry (i, c) of the result is the operand's entry plus column c of every update
    row whose start word, read signed, is i. (A word outside the table matches no i: its row is dropped.) -/
theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

/-! ## The vector scatter-add -/

section ScatterVec
variable {N n : Nat} (d : ScatterDims ⟨1, ![N]⟩ (Sh n 1) ⟨1, ![n]⟩)

/-- The start word update entry j reads is the one in row j of the index column (the updates have one axis). -/
theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the vector's one axis is the start word read signed. -/
theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

/-- The window coordinate on the vector's one axis, an inserted one, is zero. -/
theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

/-- WHERE AN UPDATE LANDS. Update entry j lands on operand entry t exactly when j's start word, read signed, is t. -/
theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

/-- THE VECTOR SCATTER-ADD AT ONE ENTRY: entry i of the result is the operand's entry plus every update entry whose
    start word, read signed, is i. -/
theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

end Cert.LibGS

end
-- ==== Proof.RefHist.lean ====
/-
  The reference program, read back.

  It forms, for every element, the flat cell word int (lvl x * 32 + lvl y), adds 1024 to a negative word, and
  scatter-adds a one at that position of a table of 1024 zeros: entry k of the table ends as the number of elements
  whose word, read signed, is k (a word outside the table is dropped).  Reshaped to 32 x 32, cell (a, b) is entry
  32 a + b.  Everything after that is the tail function of this histogram.
-/
import proofs.«140801_j87789131530707_1_alg».proof.Defs
import proofs.«140801_j87789131530707_1_alg».proof.Proof.Gen.ReferenceIdeal.Run
import proofs.«140801_j87789131530707_1_alg».proof.Proof.Gen.ReferenceIdeal.Read
import proofs.«140801_j87789131530707_1_alg».proof.Proof.Quant
import proofs.«140801_j87789131530707_1_alg».proof.Proof.Tail
import proofs.«140801_j87789131530707_1_alg».proof.Proof.LibGatherScatter
import Idealize.ShloMosaic.Lib.Pipeline.Value
import Idealize.ShloMosaic.Lib.ValueIdx

noncomputable section

open scoped BigOperators

namespace Cert.ReferenceIdeal.RefHist

open Idealize.ShloMosaic Idealize.ShloMosaic.ValueIdx Idealize.ShloMosaic.TcCoe Idealize.SL.Sem
open Cert.ReferenceIdeal Cert.ReferenceIdeal.Facts₀ Cert.ReferenceIdeal.Facts Cert.Hist

/-- The shape relations of the operations after the histogram, as this program states them. -/
theorem rel : Cert.Tail.Rel where
  red_all := reducesTo_S32x32_S_d0_1
  pos := h_S_
  b_all := bcast_S_S32x32
  red_cols := reducesTo_S32x32_S32_d1
  red_rows := reducesTo_S32x32_S32_d0
  b_col := bcast_S32_S32x1_0
  b_eps_col := bcast_S_S32x1
  b_col_all := bcast_S32x1_S32x32_0_1
  b_row := bcast_S32_S1x32_1
  b_eps_row := bcast_S_S1x32
  b_row_all := bcast_S1x32_S32x32_0_1

/-- The flat cell word of element j, as the program computes it: the convert of lvl x * 32 + lvl y. -/
theorem word_apply (x0 x1 : (⟨S2x256x256x256, .f32⟩ : BufTy).Contents (Elt Ideal)) (j : S2x256x256x256.Idx) :
    Read.val_main_v13 (F := Ideal) x0 x1 j = cellW (x0 j) (x1 j) := rfl

/-- The start word of update e is the wrapped flat cell word of the element that e numbers. -/
theorem start_apply (x0 x1 : (⟨S2x256x256x256, .f32⟩ : BufTy).Contents (Elt Ideal)) (e : Fin 33554432) :
    Read.val_main_v21 (F := Ideal) x0 x1 (ix2 e (0 : Fin 1))
      = normW (cellW (x0 (Read.idx_main_v14 (ix1 e))) (x1 (Read.idx_main_v14 (ix1 e)))) := by
  have hi : Read.idx_main_v21 (ix2 e (0 : Fin 1)) = ix1 e := by
    funext d
    match d with
    | ⟨0, _⟩ => rfl
  rw [Read.val_main_v21_apply, hi, Read.val_main_v20_apply, Read.val_main_v17_apply, Read.val_main_v19_apply,
    Read.val_main_v16_apply, Read.val_main_v18_apply, Read.val_main_c_apply, Read.val_main_c_5_apply, select_norm,
    Read.val_main_v14_apply, word_apply]

/-- Numbering the elements in row-major order: number e is the element at
    (e / 256^3, e / 256^2 mod 256, e / 256 mod 256, e mod 256), and element (j0, j1, j2, j3) has the number
    ((j0 * 256 + j1) * 256 + j2) * 256 + j3. -/
def flat : Fin 33554432 ≃ S2x256x256x256.Idx where
  toFun e := Read.idx_main_v14 (ix1 e)
  invFun j := ⟨(((j 0).val * 256 + (j 1).val) * 256 + (j 2).val) * 256 + (j 3).val, by
    have h0 : (j 0).val < 2 := (j 0).isLt
    have h1 : (j 1).val < 256 := (j 1).isLt
    have h2 : (j 2).val < 256 := (j 2).isLt
    have h3 : (j 3).val < 256 := (j 3).isLt
    omega⟩
  left_inv e := by
    apply Fin.ext
    have he : e.val < 33554432 := e.isLt
    show ((e.val / 16777216 * 256 + e.val / 65536 % 256) * 256 + e.val / 256 % 256) * 256 + e.val % 256 = e.val
    omega
  right_inv j := by
    have h0 : (j 0).val < 2 := (j 0).isLt
    have h1 : (j 1).val < 256 := (j 1).isLt
    have h2 : (j 2).val < 256 := (j 2).isLt
    have h3 : (j 3).val < 256 := (j 3).isLt
    funext d
    match d with
    | ⟨0, _⟩ =>
      apply Fin.ext
      show ((((j 0).val * 256 + (j 1).val) * 256 + (j 2).val) * 256 + (j 3).val) / 16777216 = (j 0).val
      omega
    | ⟨1, _⟩ =>
      apply Fin.ext
      show ((((j 0).val * 256 + (j 1).val) * 256 + (j 2).val) * 256 + (j 3).val) / 65536 % 256 = (j 1).val
      omega
    | ⟨2, _⟩ =>
      apply Fin.ext
      show ((((j 0).val * 256 + (j 1).val) * 256 + (j 2).val) * 256 + (j 3).val) / 256 % 256 = (j 2).val
      omega
    | ⟨3, _⟩ =>
      apply Fin.ext
      show ((((j 0).val * 256 + (j 1).val) * 256 + (j 2).val) * 256 + (j 3).val) % 256 = (j 3).val
      omega

/-- At the ideal instance the host's accumulating scatter is the exact scatter-add (stated over arbitrary shapes and operands). -/
theorem scatterAdd_ideal {s si su : Shape} {w : Nat} (d : ScatterDims s si su) (x : FVec Ideal s .f32) (idx : IVec si w)
    (u : FVec Ideal su .f32) : Host.scatterAdd (F := Ideal) d x idx u = Ideal.hostScatterAdd d x idx u :=
  Ideal.hostScatterAdd_def d .single x idx u

/-- The table after the scatter-add, as the exact scatter-add of its three operands. -/
theorem v23_eq (x0 x1 : (⟨S2x256x256x256, .f32⟩ : BufTy).Contents (Elt Ideal)) :
    Read.val_main_v23 (F := Ideal) x0 x1
      = Ideal.hostScatterAdd scatter_S1024_S33554432x1_S33554432_n_0_0_1 (Read.val_main_v15 (F := Ideal))
          (Read.val_main_v21 (F := Ideal) x0 x1) (Read.val_main_v22 (F := Ideal)) :=
  scatterAdd_ideal scatter_S1024_S33554432x1_S33554432_n_0_0_1 (Read.val_main_v15 (F := Ideal))
    (Read.val_main_v21 (F := Ideal) x0 x1) (Read.val_main_v22 (F := Ideal))

/-- Every entry of the table the scatter-add starts from is zero. -/
theorem zeros_apply (i : S1024.Idx) : Read.val_main_v15 (F := Ideal) i = 0 := by
  rw [Read.val_main_v15_apply, Read.val_main_cst_4_apply]
  exact c0_eq

/-- Every update entry is one. -/
theorem ones_apply (i : S33554432.Idx) : Read.val_main_v22 (F := Ideal) i = 1 := by
  rw [Read.val_main_v22_apply, Read.val_main_cst_6_apply]
  exact ofBits_one

/-- The count of the elements with a given word does not depend on how the elements are numbered. -/
theorem countR_reindex {ι κ : Type} [Fintype ι] [Fintype κ] (σ : κ ≃ ι) (X Y : ι → EReal) (k : ℕ) :
    countR (fun e => X (σ e)) (fun e => Y (σ e)) k = countR X Y k := by
  unfold countR
  exact Fintype.sum_equiv σ _ _ fun _ => rfl

/-- Cell (a, b) of the histogram the reference builds is the number of elements whose wrapped flat cell word is 32 a + b. -/
theorem hist_apply (x0 x1 : (⟨S2x256x256x256, .f32⟩ : BufTy).Contents (Elt Ideal)) (a b : Fin 32) :
    Read.val_main_v24 (F := Ideal) x0 x1 (ix2 a b) = countR x0 x1 (32 * a.val + b.val) := by
  have ha : a.val < 32 := a.isLt
  have hb : b.val < 32 := b.isLt
  have hk : 32 * a.val + b.val < 1024 := by omega
  have hi : Read.idx_main_v24 (ix2 a b) = ix1 (⟨32 * a.val + b.val, hk⟩ : Fin 1024) := by
    funext d
    match d with
    | ⟨0, _⟩ =>
      apply Fin.ext
      show a.val * 32 + b.val = 32 * a.val + b.val
      omega
  have key := Cert.LibGS.scatterAdd_vec_gen (N := 1024) (n := 33554432) scatter_S1024_S33554432x1_S33554432_n_0_0_1 rfl rfl rfl
    (Read.val_main_v15 (F := Ideal)) (Read.val_main_v21 (F := Ideal) x0 x1) (Read.val_main_v22 (F := Ideal)) ⟨32 * a.val + b.val, hk⟩
  rewrite [Read.val_main_v24_apply, hi, v23_eq, key, zeros_apply, zero_add, Finset.sum_filter]
  refine Eq.trans ?_ (@countR_reindex _ _ _ _ flat x0 x1 (32 * a.val + b.val))
  refine Finset.sum_congr rfl (fun e _ => ?_)
  rw [start_apply, ones_apply]
  rfl

/-- The reference's result is the tail function of its histogram. -/
theorem result_eq (x0 x1 : (⟨S2x256x256x256, .f32⟩ : BufTy).Contents (Elt Ideal)) :
    Read.val_main_v51 (F := Ideal) x0 x1 = Cert.Tail.tail rel (Read.val_main_v24 (F := Ideal) x0 x1) := by
  unfold Cert.Tail.tail
  rfl

/-- Every weakly fair execution of the reference terminates with the result at the tail function of its histogram,
    the arguments kept. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v51)
          = Cert.Tail.tail rel (Read.val_main_v24 (F := Ideal) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ h c => ⟨(h c).1.trans ((Read.val_main_v51_eq (F := Ideal) m c).trans (result_eq _ _)), (h c).2⟩)
    (Cert.ReferenceIdeal.Value.run (F := Ideal) m ρ)

end Cert.ReferenceIdeal.RefHist

end
-- ==== Proof.lean ====
/-
  The kernel builds the 32 x 32 joint histogram of two quantised intensity volumes by one-hot encodings and a
  batched matrix product, accumulated over a grid of 512 points; the reference builds it by a scatter-add of ones at
  the flat cell word.  Both then apply the same function to the histogram (normalise, mutual information, logistic).

  The two histograms agree when every element's level  roundeven (x / 255 * 31)  is one of the 32 bins, which the
  precondition states:
    * the kernel's cell (a, b) is the sum over the grid points of the point's count of the elements whose two bin
      words are a and b (the accumulator, read off the frame run), and the points' blocks run once through all
      elements, so it is the count of that cell over all elements;
    * the reference's cell (a, b) is the number of elements whose flat word  32 * level x + level y  (wrapped when
      negative, dropped when outside the table) is 32 a + b;
    * with both levels integers of [0, 31], the flat word is 32 a + b exactly when the levels are a and b.
  The three frames are the generated ones; the idealisation rewrote nothing, so preserves is trivial.
-/
import proofs.«140801_j87789131530707_1_alg».proof.Defs
import proofs.«140801_j87789131530707_1_alg».proof.Proof.Gen.Kernel
import proofs.«140801_j87789131530707_1_alg».proof.Proof.Gen.Kernel.Skeleton
import proofs.«140801_j87789131530707_1_alg».proof.Proof.Gen.Kernel.Launch
import proofs.«140801_j87789131530707_1_alg».proof.Proof.Gen.Kernel.Points
import proofs.«140801_j87789131530707_1_alg».proof.Proof.Gen.Kernel.Frame
import proofs.«140801_j87789131530707_1_alg».proof.Proof.Gen.KernelIdeal
import proofs.«140801_j87789131530707_1_alg».proof.Proof.Gen.KernelIdeal.Skeleton
import proofs.«140801_j87789131530707_1_alg».proof.Proof.Gen.KernelIdeal.Launch
import proofs.«140801_j87789131530707_1_alg».proof.Proof.Gen.KernelIdeal.Points
import proofs.«140801_j87789131530707_1_alg».proof.Proof.Gen.KernelIdeal.Frame
import proofs.«140801_j87789131530707_1_alg».proof.Proof.Gen.ReferenceIdeal
import proofs.«140801_j87789131530707_1_alg».proof.Proof.Gen.ReferenceIdeal.Run
import proofs.«140801_j87789131530707_1_alg».proof.Proof.Gen.ReferenceIdeal.Read
import proofs.«140801_j87789131530707_1_alg».proof.Proof.Gen.Pre_finite_inputs
import proofs.«140801_j87789131530707_1_alg».proof.Proof.Quant
import proofs.«140801_j87789131530707_1_alg».proof.Proof.Tail
import proofs.«140801_j87789131530707_1_alg».proof.Proof.PreRange
import proofs.«140801_j87789131530707_1_alg».proof.Proof.KNames
import proofs.«140801_j87789131530707_1_alg».proof.Proof.KAcc
import proofs.«140801_j87789131530707_1_alg».proof.Proof.KBlocks
import proofs.«140801_j87789131530707_1_alg».proof.Proof.KRun
import proofs.«140801_j87789131530707_1_alg».proof.Proof.RefHist
import Idealize.ShloMosaic.Adequacy
import Idealize.ShloMosaic.Init
import Idealize.ShloMosaic.Lib.ValueIdx

noncomputable section

namespace Cert.Proof

open Idealize.ShloMosaic Idealize.ShloMosaic.ValueIdx Idealize.SL.Sem

/-- The reference's frame: its generated run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The two histograms, cell by cell: the reference's count by flat words is the kernel's count by pairs of bin
    words, every level being in range under the precondition. -/
theorem hist_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v24 (F := Ideal) (Cert.KernelIdeal.KNames.xarg m c) (Cert.KernelIdeal.KNames.yarg m c)
      = Cert.KernelIdeal.KNames.outArr m c := by
  funext j
  obtain ⟨a, b, rfl⟩ : ∃ (a b : Fin 32), j = ix2 a b := ⟨j 0, j 1, eq_ix2 j⟩
  rw [Cert.ReferenceIdeal.RefHist.hist_apply, Cert.KernelIdeal.KAcc.outArr_apply, Cert.KernelIdeal.KBlocks.tiles_eq_count]
  exact Cert.Hist.countR_eq_count _ _ (fun e => Cert.PreRange.inRange_of_pre _ _ (hpre c) e) a b

/-- Both programs end at the tail function of one histogram. -/
theorem algebraic : Cert.algebraic_KernelIdeal_ReferenceIdeal := by
  intro m ρ m' ρ' hpre hagree
  refine ⟨fun c => Cert.Tail.tail Cert.KernelIdeal.KNames.rel (Cert.KernelIdeal.KNames.outArr m c),
    Cert.KernelIdeal.KRun.run m ρ, ?_⟩
  refine (θ_run Cert.ReferenceIdeal.defs _ _).mono (fun _ h c => ⟨(h c).1.trans ?_, (h c).2⟩)
    (Cert.ReferenceIdeal.RefHist.run m' ρ')
  rw [(hagree c).1, (hagree c).2]
  exact congrArg (Cert.Tail.tail _) (hist_eq m hpre c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
